-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x17400 : Shape := ⟨2, ![1, 17400]⟩
abbrev S20000000x2 : Shape := ⟨2, ![20000000, 2]⟩
abbrev S20000000 : Shape := ⟨1, ![20000000]⟩
abbrev S_ : Shape := ⟨0, ![]⟩
abbrev S20000000x1 : Shape := ⟨2, ![20000000, 1]⟩

class Facts : Prop where
  bcast_S_S1x17400 : S_.BroadcastsInDim S1x17400 (![] : Fin 0 → Fin S1x17400.rank)
  reducesTo_S1x17400_S_d0_1 : S1x17400.ReducesTo [0, 1] S_
  h_S_ : 0 < S_.numel
  bcast_S_S20000000 : S_.BroadcastsInDim S20000000 (![] : Fin 0 → Fin S20000000.rank)
  reducesTo_S20000000_S_d0 : S20000000.ReducesTo [0] S_
  slices_S20000000x2_S20000000x1_0_1 : S20000000x2.Slices ![0, 1] S20000000x1
  bcast_S_S20000000x1 : S_.BroadcastsInDim S20000000x1 (![] : Fin 0 → Fin S20000000x1.rank)
  reducesTo_S20000000x1_S_d0_1 : S20000000x1.ReducesTo [0, 1] S_

variable [Facts]

def fn_part1 {F : FTy → Type} [FloatOps F] (main_arg1 : IVec S20000000x2 32) (main_v13 : IVec S_ 1) (main_v16 : IVec S20000000x1 1) : IVec S_ 1 :=
  let main_c_5 : IVec S_ 1 := constantI S_ 1 1#1
  let main_v17 : IVec S_ 1 := (fun x v => Host.reduce IntOp.andi x v reducesTo_S20000000x1_S_d0_1 h_S_) main_v16 main_c_5
  let main_v18 : IVec S_ 1 := andi main_v13 main_v17
  let main_v19 : IVec S20000000x1 32 := (extractStridedSlice S20000000x1 ![0, 1] · slices_S20000000x2_S20000000x1_0_1) main_arg1
  let main_c_6 : IVec S_ 32 := constantI S_ 32 17400#32
  let main_v20 : IVec S20000000x1 32 := broadcastInDim S20000000x1 ![] bcast_S_S20000000x1 main_c_6
  let main_v21 : IVec S20000000x1 1 := cmpi .slt main_v19 main_v20
  let main_c_7 : IVec S_ 1 := constantI S_ 1 1#1
  let main_v22 : IVec S_ 1 := (fun x v => Host.reduce IntOp.andi x v reducesTo_S20000000x1_S_d0_1 h_S_) main_v21 main_c_7
  let main_v23 : IVec S_ 1 := andi main_v18 main_v22
  main_v23

def fn {F : FTy → Type} [FloatOps F] (main_arg0 : FVec F S1x17400 .f32) (main_arg1 : IVec S20000000x2 32) (main_arg2 : FVec F S20000000 .f32) (main_arg3 : FVec F S20000000 .f32) : IVec S_ 1 :=
  let main_v0 : FVec F S1x17400 .f32 := Host.absf main_arg0
  let main_cst : FVec F S_ .f32 := constant S_ .f32 0x7F800000#32
  let main_v1 : FVec F S1x17400 .f32 := broadcastInDim S1x17400 ![] bcast_S_S1x17400 main_cst
  let main_v2 : IVec S1x17400 1 := cmpf .olt main_v0 main_v1
  let main_c : IVec S_ 1 := constantI S_ 1 1#1
  let main_v3 : IVec S_ 1 := (fun x v => Host.reduce IntOp.andi x v reducesTo_S1x17400_S_d0_1 h_S_) main_v2 main_c
  let main_v4 : FVec F S20000000 .f32 := Host.absf main_arg2
  let main_cst_0 : FVec F S_ .f32 := constant S_ .f32 0x7F800000#32
  let main_v5 : FVec F S20000000 .f32 := broadcastInDim S20000000 ![] bcast_S_S20000000 main_cst_0
  let main_v6 : IVec S20000000 1 := cmpf .olt main_v4 main_v5
  let main_c_1 : IVec S_ 1 := constantI S_ 1 1#1
  let main_v7 : IVec S_ 1 := (fun x v => Host.reduce IntOp.andi x v reducesTo_S20000000_S_d0 h_S_) main_v6 main_c_1
  let main_v8 : IVec S_ 1 := andi main_v3 main_v7
  let main_v9 : FVec F S20000000 .f32 := Host.absf main_arg3
  let main_cst_2 : FVec F S_ .f32 := constant S_ .f32 0x7F800000#32
  let main_v10 : FVec F S20000000 .f32 := broadcastInDim S20000000 ![] bcast_S_S20000000 main_cst_2
  let main_v11 : IVec S20000000 1 := cmpf .olt main_v9 main_v10
  let main_c_3 : IVec S_ 1 := constantI S_ 1 1#1
  let main_v12 : IVec S_ 1 := (fun x v => Host.reduce IntOp.andi x v reducesTo_S20000000_S_d0 h_S_) main_v11 main_c_3
  let main_v13 : IVec S_ 1 := andi main_v8 main_v12
  let main_v14 : IVec S20000000x1 32 := (extractStridedSlice S20000000x1 ![0, 1] · slices_S20000000x2_S20000000x1_0_1) main_arg1
  let main_c_4 : IVec S_ 32 := constantI S_ 32 0#32
  let main_v15 : IVec S20000000x1 32 := broadcastInDim S20000000x1 ![] bcast_S_S20000000x1 main_c_4
  let main_v16 : IVec S20000000x1 1 := cmpi .sge main_v14 main_v15
  fn_part1 (F := F) main_arg1 main_v13 main_v16
-- ==== Kernel.lean ====
abbrev S1x17400 : Shape := ⟨2, ![1, 17400]⟩
abbrev S20000000x2 : Shape := ⟨2, ![20000000, 2]⟩
abbrev S20000000 : Shape := ⟨1, ![20000000]⟩
abbrev S20000000x1 : Shape := ⟨2, ![20000000, 1]⟩
abbrev S_ : Shape := ⟨0, ![]⟩
abbrev S20000768 : Shape := ⟨1, ![20000768]⟩
abbrev S2x10000384x1 : Shape := ⟨3, ![2, 10000384, 1]⟩
abbrev S17400 : Shape := ⟨1, ![17400]⟩
abbrev S32768 : Shape := ⟨1, ![32768]⟩
abbrev S128x256 : Shape := ⟨2, ![128, 256]⟩
abbrev S2x256x256 : Shape := ⟨3, ![2, 256, 256]⟩
abbrev S1x2048x1 : Shape := ⟨3, ![1, 2048, 1]⟩
abbrev S1x256x256 : Shape := ⟨3, ![1, 256, 256]⟩
abbrev S256x256 : Shape := ⟨2, ![256, 256]⟩
abbrev S2048x1 : Shape := ⟨2, ![2048, 1]⟩
abbrev S2048x256 : Shape := ⟨2, ![2048, 256]⟩
abbrev S2048x128 : Shape := ⟨2, ![2048, 128]⟩
abbrev S2048 : Shape := ⟨1, ![2048]⟩
abbrev S1x65536 : Shape := ⟨2, ![1, 65536]⟩
abbrev S1x51978 : Shape := ⟨2, ![1, 51978]⟩

abbrev nBuf : Space → Nat
  | .hbm => 35
  | .vmem => 9
  | .smem => 0
  | _ => 0

abbrev bufTy : (tb : Table) → Fin (tcTables nBuf tb) → BufTy
  | .hbm, ⟨0, _⟩ => ⟨S1x17400, .f32⟩
  | .hbm, ⟨1, _⟩ => ⟨S20000000x2, .i32⟩
  | .hbm, ⟨2, _⟩ => ⟨S20000000, .f32⟩
  | .hbm, ⟨3, _⟩ => ⟨S20000000, .f32⟩
  | .hbm, ⟨4, _⟩ => ⟨S20000000x1, .i32⟩
  | .hbm, ⟨5, _⟩ => ⟨S20000000, .i32⟩
  | .hbm, ⟨6, _⟩ => ⟨S20000000x1, .i32⟩
  | .hbm, ⟨7, _⟩ => ⟨S20000000, .i32⟩
  | .hbm, ⟨8, _⟩ => ⟨S20000000, .f32⟩
  | .hbm, ⟨9, _⟩ => ⟨S_, .i32⟩
  | .hbm, ⟨10, _⟩ => ⟨S_, .i32⟩
  | .hbm, ⟨11, _⟩ => ⟨S20000768, .i32⟩
  | .hbm, ⟨12, _⟩ => ⟨S_, .i32⟩
  | .hbm, ⟨13, _⟩ => ⟨S_, .i32⟩
  | .hbm, ⟨14, _⟩ => ⟨S20000768, .i32⟩
  | .hbm, ⟨15, _⟩ => ⟨S_, .f32⟩
  | .hbm, ⟨16, _⟩ => ⟨S_, .f32⟩
  | .hbm, ⟨17, _⟩ => ⟨S20000768, .f32⟩
  | .hbm, ⟨18, _⟩ => ⟨S2x10000384x1, .i32⟩
  | .hbm, ⟨19, _⟩ => ⟨S2x10000384x1, .i32⟩
  | .hbm, ⟨20, _⟩ => ⟨S2x10000384x1, .f32⟩
  | .hbm, ⟨21, _⟩ => ⟨S17400, .f32⟩
  | .hbm, ⟨22, _⟩ => ⟨S_, .f32⟩
  | .hbm, ⟨23, _⟩ => ⟨S17400, .f32⟩
  | .hbm, ⟨24, _⟩ => ⟨S17400, .i1⟩
  | .hbm, ⟨25, _⟩ => ⟨S17400, .bf16⟩
  | .hbm, ⟨26, _⟩ => ⟨S_, .i32⟩
  | .hbm, ⟨27, _⟩ => ⟨S_, .bf16⟩
  | .hbm, ⟨28, _⟩ => ⟨S32768, .bf16⟩
  | .hbm, ⟨29, _⟩ => ⟨S128x256, .bf16⟩
  | .hbm, ⟨30, _⟩ => ⟨S2x256x256, .f32⟩
  | .hbm, ⟨31, _⟩ => ⟨S_, .f32⟩
  | .hbm, ⟨32, _⟩ => ⟨S256x256, .f32⟩
  | .hbm, ⟨33, _⟩ => ⟨S1x65536, .f32⟩
  | .hbm, ⟨34, _⟩ => ⟨S1x51978, .f32⟩
  | .local _ .vmem, ⟨0, _⟩ => ⟨S1x2048x1, .i32⟩
  | .local _ .vmem, ⟨1, _⟩ => ⟨S1x2048x1, .i32⟩
  | .local _ .vmem, ⟨2, _⟩ => ⟨S1x2048x1, .i32⟩
  | .local _ .vmem, ⟨3, _⟩ => ⟨S1x2048x1, .i32⟩
  | .local _ .vmem, ⟨4, _⟩ => ⟨S1x2048x1, .f32⟩
  | .local _ .vmem, ⟨5, _⟩ => ⟨S1x2048x1, .f32⟩
  | .local _ .vmem, ⟨6, _⟩ => ⟨S128x256, .bf16⟩
  | .local _ .vmem, ⟨7, _⟩ => ⟨S1x256x256, .f32⟩
  | .local _ .vmem, ⟨8, _⟩ => ⟨S1x256x256, .f32⟩
  | _, _ => ⟨S1x17400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_cst : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_call3_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4883], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S20000000x2_S20000000x1_0_0 : S20000000x2.Slices ![0, 0] S20000000x1
  shapeCasts_S20000000x1_S20000000 : S20000000x1.ShapeCasts S20000000
  slices_S20000000x2_S20000000x1_0_1 : S20000000x2.Slices ![0, 1] S20000000x1
  pads_S20000000_S20000768_07680 : S20000000.Pads (![0] : Fin 1 → Nat) ![768] ![0] S20000768
  h_S_ : 0 < S_.numel
  shapeCasts_S20000768_S2x10000384x1 : S20000768.ShapeCasts S2x10000384x1
  shapeCasts_S1x17400_S17400 : S1x17400.ShapeCasts S17400
  bcast_S_S17400 : S_.BroadcastsInDim S17400 (![] : Fin 0 → Fin S17400.rank)
  pads_S17400_S32768_0153680 : S17400.Pads (![0] : Fin 1 → Nat) ![15368] ![0] S32768
  shapeCasts_S32768_S128x256 : S32768.ShapeCasts S128x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  iota_S2048x256_d1_w32 : S2048x256.Iotas .tc 32 [1]
  iota_S2048x128_d1_w32 : S2048x128.Iotas .tc 32 [1]
  broadcasts_S2048x1_S2048x128 : S2048x1.Broadcasts S2048x128
  natLt_1_32 : 1 < 32
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S2048x1_S2048x256 : S2048x1.Broadcasts S2048x256
  reduces_S2048x256_S2048 : S2048x256.Reduces [1] S2048
  shapeCasts_S2048_S2048x1 : S2048.ShapeCasts S2048x1
  reducesTo_S2x256x256_S256x256_d0 : S2x256x256.ReducesTo [0] S256x256
  shapeCasts_S256x256_S1x65536 : S256x256.ShapeCasts S1x65536
  slices_S1x65536_S1x51978_0_0 : S1x65536.Slices ![0, 0] S1x51978
  dot_S2048x128_S128x256_S2048x256_1_0_0_1_n_n_wf : DotDims.WF S2048x128 S128x256 S2048x256 [1] [0] [0] [1] [] []
  dot_S2048x256_S2048x256_S256x256_0_0_1_1_n_n_wf : DotDims.WF S2048x256 S2048x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S2x10000384x1.size a
  hwx0_0 : ∀ i : grid0.Coords, EltTy.bits .i32 = 32 ∨ (Rect.block (s := S2x10000384x1) S1x2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S2x10000384x1.size a
  hwx0_1 : ∀ i : grid0.Coords, EltTy.bits .i32 = 32 ∨ (Rect.block (s := S2x10000384x1) S1x2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S2x10000384x1.size a
  hwx0_2 : ∀ i : grid0.Coords, EltTy.bits .f32 = 32 ∨ (Rect.block (s := S2x10000384x1) S1x2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S2x256x256.size a
  hwx0_4 : ∀ i : grid0.Coords, EltTy.bits .f32 = 32 ∨ (Rect.block (s := S2x256x256) S1x256x256.size (cc0_transform_4 i) (hinb0_4 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf

abbrev win0_0 : Pipeline.Window sig grid0 :=
  Pipeline.Window.ofSpec (Memref.whole main_v8) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x17400 : Shape := ⟨2, ![1, 17400]⟩
abbrev S20000000x2 : Shape := ⟨2, ![20000000, 2]⟩
abbrev S20000000 : Shape := ⟨1, ![20000000]⟩
abbrev S20000000x1 : Shape := ⟨2, ![20000000, 1]⟩
abbrev S17400 : Shape := ⟨1, ![17400]⟩
abbrev S_ : Shape := ⟨0, ![]⟩
abbrev S51978 : Shape := ⟨1, ![51978]⟩
abbrev S1x51978 : Shape := ⟨2, ![1, 51978]⟩

abbrev nBuf : Space → Nat
  | .hbm => 30
  | .vmem => 0
  | .smem => 0
  | _ => 0

abbrev bufTy : (tb : Table) → Fin (tcTables nBuf tb) → BufTy
  | .hbm, ⟨0, _⟩ => ⟨S1x17400, .f32⟩
  | .hbm, ⟨1, _⟩ => ⟨S20000000x2, .i32⟩
  | .hbm, ⟨2, _⟩ => ⟨S20000000, .f32⟩
  | .hbm, ⟨3, _⟩ => ⟨S20000000, .f32⟩
  | .hbm, ⟨4, _⟩ => ⟨S20000000x1, .i32⟩
  | .hbm, ⟨5, _⟩ => ⟨S20000000, .i32⟩
  | .hbm, ⟨6, _⟩ => ⟨S20000000x1, .i32⟩
  | .hbm, ⟨7, _⟩ => ⟨S20000000, .i32⟩
  | .hbm, ⟨8, _⟩ => ⟨S17400, .f32⟩
  | .hbm, ⟨9, _⟩ => ⟨S_, .f32⟩
  | .hbm, ⟨10, _⟩ => ⟨S17400, .f32⟩
  | .hbm, ⟨11, _⟩ => ⟨S17400, .i1⟩
  | .hbm, ⟨12, _⟩ => ⟨S_, .i32⟩
  | .hbm, ⟨13, _⟩ => ⟨S20000000, .i32⟩
  | .hbm, ⟨14, _⟩ => ⟨S20000000, .i1⟩
  | .hbm, ⟨15, _⟩ => ⟨S_, .i32⟩
  | .hbm, ⟨16, _⟩ => ⟨S20000000, .i32⟩
  | .hbm, ⟨17, _⟩ => ⟨S20000000, .i32⟩
  | .hbm, ⟨18, _⟩ => ⟨S20000000, .i32⟩
  | .hbm, ⟨19, _⟩ => ⟨S20000000x1, .i32⟩
  | .hbm, ⟨20, _⟩ => ⟨S20000000, .i1⟩
  | .hbm, ⟨21, _⟩ => ⟨S20000000, .f32⟩
  | .hbm, ⟨22, _⟩ => ⟨S_, .f32⟩
  | .hbm, ⟨23, _⟩ => ⟨S20000000, .f32⟩
  | .hbm, ⟨24, _⟩ => ⟨S20000000, .f32⟩
  | .hbm, ⟨25, _⟩ => ⟨S_, .f32⟩
  | .hbm, ⟨26, _⟩ => ⟨S51978, .f32⟩
  | .hbm, ⟨27, _⟩ => ⟨S20000000x1, .i32⟩
  | .hbm, ⟨28, _⟩ => ⟨S51978, .f32⟩
  | .hbm, ⟨29, _⟩ => ⟨S1x51978, .f32⟩
  | _, _ => ⟨S1x17400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  slices_S20000000x2_S20000000x1_0_0 : S20000000x2.Slices ![0, 0] S20000000x1
  shapeCasts_S20000000x1_S20000000 : S20000000x1.ShapeCasts S20000000
  slices_S20000000x2_S20000000x1_0_1 : S20000000x2.Slices ![0, 1] S20000000x1
  shapeCasts_S1x17400_S17400 : S1x17400.ShapeCasts S17400
  bcast_S_S17400 : S_.BroadcastsInDim S17400 (![] : Fin 0 → Fin S17400.rank)
  bcast_S_S20000000 : S_.BroadcastsInDim S20000000 (![] : Fin 0 → Fin S20000000.rank)
  bcast_S20000000_S20000000x1_0 : S20000000.BroadcastsInDim S20000000x1 (![0] : Fin 1 → Fin S20000000x1.rank)
  bcast_S_S51978 : S_.BroadcastsInDim S51978 (![] : Fin 0 → Fin S51978.rank)
  bcast_S51978_S1x51978_1 : S51978.BroadcastsInDim S1x51978 (![1] : Fin 1 → Fin S1x51978.rank)
  gather_S17400_S20000000x1_S20000000_n_0_n_n_0_1_1_wf : GatherDims.WF S17400 S20000000x1 S20000000 [] [0] [] [0] [] 1 ![1]
  scatter_S51978_S20000000x1_S20000000_n_0_0_1_wf : ScatterDims.WF S51978 S20000000x1 S20000000 [] [0] [0] 1

variable [Facts₀]

def gather_S17400_S20000000x1_S20000000_n_0_n_n_0_1_1 : GatherDims S17400 S20000000x1 S20000000 where
  offsetDims := []
  collapsedSliceDims := [0]
  operandBatchingDims := []
  startIndicesBatchingDims := []
  startIndexMap := [0]
  indexVectorDim := 1
  sliceSizes := ![1]
  wf := gather_S17400_S20000000x1_S20000000_n_0_n_n_0_1_1_wf
def scatter_S51978_S20000000x1_S20000000_n_0_0_1 : ScatterDims S51978 S20000000x1 S20000000 where
  updateWindowDims := []
  insertedWindowDims := [0]
  scatterDimsToOperandDims := [0]
  indexVectorDim := 1
  wf := scatter_S51978_S20000000x1_S20000000_n_0_0_1_wf

class Facts : Prop extends Facts₀ where

variable [Facts]
-- ==== Proof.Spec.lean ====
/-
  The synaptic input current, as ONE function of the four argument arrays.

  Synapse n joins presynaptic unit pre(n) = indices[n, 1] to postsynaptic neuron post(n) = indices[n, 0] with the
  weight w(n)·f(n). The current into neuron j is the sum of the weights of the synapses that end at j and whose
  presynaptic unit spiked (its entry of the input row is positive):

      G j = ∑ n, [post(n) = j] · (if spiked(pre(n)) then w(n)·f(n) else 0).

  Both programs are proved equal to `result`. The definitions below are total in the index words: a presynaptic
  word that names no unit counts as silent, which is what the one-hot kernel computes for it and what the
  reference computes whenever the word is in range.

  The second half restates the same sum the way the kernel meets it: the synapse list padded with 768 silent
  zero-weight synapses to 9766 chunks of 2048, neuron j named by its high and low bytes (j = 256·h + l).
-/
import Idealize.ShloMosaic.PureOps.Ideal
import Idealize.ShloMosaic.Lib.ValueIdx
import Mathlib.Algebra.BigOperators.Fin

noncomputable section

open scoped BigOperators

namespace Cert.Syn

open Idealize.ShloMosaic Idealize.ShloMosaic.ValueIdx

abbrev SIn : Shape := ⟨2, ![1, 17400]⟩
abbrev SInd : Shape := ⟨2, ![20000000, 2]⟩
abbrev SSyn : Shape := ⟨1, ![20000000]⟩
abbrev SOut : Shape := ⟨2, ![1, 51978]⟩

variable (xin : FVec Ideal SIn .f32) (ind : IVec SInd 32) (w f : FVec Ideal SSyn .f32)

/-- Whether the presynaptic unit a word names spiked: its entry of the input row is positive. A word that names
    no unit (17400 or more read unsigned, so every negative word too) is silent. -/
def act (p : BitVec 32) : BitVec 1 :=
  if h : p.toNat < 17400 then
    FloatOps.cmpf (F := Ideal) (φ := .f32) .ogt (xin (ix2 (0 : Fin 1) (⟨p.toNat, h⟩ : Fin 17400))) (Ideal.ofBits .f32 0x00000000#32)
  else 0#1

/-- Synapse n's weight if its presynaptic unit spiked, else zero. -/
def syn (n : Fin 20000000) : EReal :=
  Scalar.select (act xin (ind (ix2 n (1 : Fin 2)))) (w (ix1 n) * f (ix1 n)) 0

/-- The current into neuron j: the spiking synapses' weights that end at j. -/
def G (j : ℕ) : EReal :=
  ∑ n : Fin 20000000, if (ind (ix2 n (0 : Fin 2))).toInt = (j : ℤ) then syn xin ind w f n else 0

/-- The result array [1, 51978]. -/
def result : FVec Ideal SOut .f32 := fun i => G xin ind w f (i 1).val

/-! ## The padded synapse list, as the kernel meets it -/

/-- Presynaptic words, zero past the end. -/
def prePad (n : ℕ) : BitVec 32 := if h : n < 20000000 then ind (ix2 (⟨n, h⟩ : Fin 20000000) (1 : Fin 2)) else 0#32

/-- Postsynaptic words, zero past the end. -/
def postPad (n : ℕ) : BitVec 32 := if h : n < 20000000 then ind (ix2 (⟨n, h⟩ : Fin 20000000) (0 : Fin 2)) else 0#32

/-- Weights w·f, zero past the end. -/
def wfPad (n : ℕ) : EReal :=
  if h : n < 20000000 then w (ix1 (⟨n, h⟩ : Fin 20000000)) * f (ix1 (⟨n, h⟩ : Fin 20000000)) else Ideal.ofBits .f32 0x00000000#32

/-- The spike table: unit k's spike as the number 0 or 1, zero past the last unit. -/
def actPad (k : ℕ) : EReal :=
  if h : k < 17400 then
    FloatOps.uitofp (F := Ideal) .bf16
      (FloatOps.cmpf (F := Ideal) (φ := .f32) .ogt (xin (ix2 (0 : Fin 1) (⟨k, h⟩ : Fin 17400))) (Ideal.ofBits .f32 0x00000000#32))
  else FloatOps.sitofp (F := Ideal) .bf16 (0#32)

/-- Padded synapse n's contribution to the neuron whose high byte is h and low byte is l. -/
def term (h l : ℕ) (n : ℕ) : EReal :=
  if IntOp.shrsi .vector (postPad ind n) 8#32 = BitVec.ofNat 32 h ∧ IntOp.andi (postPad ind n) 255#32 = BitVec.ofNat 32 l then
    Scalar.select (act xin (prePad ind n)) (wfPad w f n) (Ideal.ofBits .f32 0x00000000#32)
  else 0

end Cert.Syn

end
-- ==== Proof.PreDecode.lean ====
/-
  What the precondition says of the presynaptic column: every entry of indices[:, 1] is at least 0 and below 17400
  read signed, so read unsigned it is below 17400 and names a unit of the input row.
-/
import proofs.«430677_j34170759807367_3_alg».proof.Pre_finite_inputs
import proofs.«430677_j34170759807367_3_alg».proof.Proof.Gen.Pre_finite_inputs
import proofs.«430677_j34170759807367_3_alg».proof.Proof.Spec
import Idealize.ShloMosaic.Lib.ReduceAll
import Idealize.ShloMosaic.Lib.StableHlo.Predicate
import Idealize.ShloMosaic.Lib.Pipeline.Value
import Idealize.ShloMosaic.Lib.ValueLayout

noncomputable section

namespace Cert.Syn

open Idealize.ShloMosaic Idealize.ShloMosaic.ValueIdx

/-- The rank-0 shape has one index. -/
private instance subsingleton_scalar_idx : Subsingleton Cert.Pre_finite_inputs.S_.Idx :=
  ⟨fun _ _ => funext fun d => d.elim0⟩

/-- A word that is at least 0 and below 17400 read signed is below 17400 read unsigned. -/
private theorem toNat_lt_of_signed_range (x : BitVec 32) (h0 : (0#32).toInt ≤ x.toInt) (h1 : x.toInt < (17400#32).toInt) :
    x.toNat < 17400 := by
  have e0 : (0#32 : BitVec 32).toInt = 0 := by decide
  have e1 : (17400#32 : BitVec 32).toInt = 17400 := by decide
  rw [e0] at h0
  rw [e1] at h1
  rw [BitVec.toInt_eq_toNat_cond] at h0 h1
  have := x.isLt
  split at h0 <;> omega

theorem pre_in_range (a0 : FVec Ideal SIn .f32) (a1 : IVec SInd 32) (a2 a3 : FVec Ideal SSyn .f32)
    (h : Cert.Pre_finite_inputs.fn (F := Ideal) a0 a1 a2 a3 = fun _ => 1#1) (n : Fin 20000000) :
    (a1 (ix2 n (1 : Fin 2))).toNat < 17400 := by
  have h0 := congrFun h ValueIdx.ix0
  unfold Cert.Pre_finite_inputs.fn Cert.Pre_finite_inputs.fn_part1 at h0
  dsimp only at h0
  obtain ⟨h18, h22⟩ := IntOp.andi_eq_one.1 h0
  obtain ⟨-, h17⟩ := IntOp.andi_eq_one.1 h18
  have hge := IntOp.cmpi_sge.1 (Host.reduce_andi_all _ _ _ _ _ h17 (ix2 n (0 : Fin 1)))
  have hlt := IntOp.cmpi_slt.1 (Host.reduce_andi_all _ _ _ _ _ h22 (ix2 n (0 : Fin 1)))
  rw [slice2_axis1_apply 1 a1 _ n (0 : Fin 1) (1 : Fin 2) rfl, StableHlo.Predicate.bcast_scalar _ Cert.Pre_finite_inputs.Facts.h_S_] at hge hlt
  exact toNat_lt_of_signed_range _ hge hlt

end Cert.Syn

end
-- ==== Proof.LibScatter.lean ====
/-
  The host's accumulating scatter and its gather READ AT AN INDEX, at the ideal instance, for the two shapes a
  segment sum and a take along axis 0 have: a vector [N] (indices [M, 1], updates [M]) and rows [N, C] (indices
  [M, 1], updates [M, C]). Every lemma is over an arbitrary dimension-number record whose fields are fixed by
  hypotheses, each closed by rfl on a program's own record.

  scatterAdd_vec / scatterAdd_rows: the scatter at an element is the operand's element plus the sum, over the
  updates (rows), of those whose start index read SIGNED is the element's (row) index; scatterAdd_vec_toNat /
  scatterAdd_rows_toNat: the same with the index read unsigned, for 32-bit indices and N < 2³¹. gather_vec /
  gather_rows: the gather at a position whose start index is in range is the operand at that index.
  pad_vec_apply / pad_rows_apply: a padding after the end (of the rows) at an index; concatenate_vec_left /
  concatenate_vec_right: two vectors end to end at an index. sum_idx1, sum_fin_split, sum_fin_padded: a sum over a
  rank-1 index set, over a range cut in two, over a padded range.
-/
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.LibScatter

open Idealize.ShloMosaic Idealize.ShloMosaic.ValueIdx

/-! ## Where an update lands: the vector shape -/

/-- For an operand [N], scatter indices [M, 1] and updates [M] (one inserted window axis, no update window axis):
    update j lands on element i exactly when its start index, read signed, is i. -/
theorem resultIdx?_vec {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (j : Fin M) (i : Fin N) :
    d.resultIdx? (ix1 j) idx = some (ix1 i) ↔ (idx (ix2 j (0 : Fin 1))).toInt = (i.val : ℤ) := by
  obtain ⟨uw, iw, sd, iv, wf⟩ := d
  simp only at h1 h2 h3 h4
  subst h1 h2 h3 h4
  have hstart : ∀ a, ScatterDims.start ⟨[], [0], [0], 1, wf⟩ (ix1 j) idx a = (idx (ix2 j (0 : Fin 1))).toInt := by
    intro a
    obtain rfl : a = 0 := Subsingleton.elim _ _
    unfold ScatterDims.start
    rw [dif_pos (List.mem_singleton.mpr rfl)]
    congr 2
    funext b
    match b with
    | ⟨0, _⟩ => rfl
    | ⟨1, _⟩ => rfl
  have hwin : ∀ a, ScatterDims.window ⟨[], [0], [0], 1, wf⟩ (ix1 j) a = 0 := by
    intro a
    obtain rfl : a = 0 := Subsingleton.elim _ _
    unfold ScatterDims.window
    rw [dif_neg (by simp [ScatterDims.sKept, Shape.kept])]
  unfold ScatterDims.resultIdx?
  simp only [hstart, hwin, Nat.cast_zero, add_zero]
  constructor
  · intro h
    split_ifs at h with hc
    have h0 := congrArg Fin.val (congrFun (Option.some.inj h) 0)
    have hc0 := hc 0
    simp only [Matrix.cons_val_zero] at hc0
    change (idx (ix2 j (0 : Fin 1))).toInt.toNat = i.val at h0
    omega
  · intro h
    have hc : ∀ a : Fin 1, 0 ≤ (idx (ix2 j (0 : Fin 1))).toInt ∧ (idx (ix2 j (0 : Fin 1))).toInt < ((![N] a : ℕ) : ℤ) := by
      intro a
      obtain rfl : a = 0 := Subsingleton.elim _ _
      simp only [Matrix.cons_val_zero]
      have := i.isLt
      omega
    rw [dif_pos hc]
    congr 1
    funext a
    obtain rfl : a = 0 := Subsingleton.elim _ _
    apply Fin.ext
    change (idx (ix2 j (0 : Fin 1))).toInt.toNat = i.val
    omega

/-! ## Where an update lands: rows -/

section Rows
variable {N C M w : Nat} (d : ScatterDims ⟨2, ![N, C]⟩ ⟨2, ![M, 1]⟩ ⟨2, ![M, C]⟩)
  (h1 : d.updateWindowDims = [1]) (h2 : d.insertedWindowDims = [0]) (h3 : d.scatterDimsToOperandDims = [0])
  (h4 : d.indexVectorDim = 1) (idx : IVec ⟨2, ![M, 1]⟩ w) (j : Fin M) (c' : Fin C)
include h1 h2 h3 h4

/-- On the row axis an update's window starts at its start index, read signed. -/
theorem start_rows_zero : d.start (ix2 j c') idx 0 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the column axis, which the start index map does not name, the window starts at 0. -/
theorem start_rows_one : d.start (ix2 j c') idx 1 = 0 := by
  obtain ⟨uw, iw, sd, iv, wf⟩ := d
  simp only at h1 h2 h3 h4
  subst h1 h2 h3 h4
  unfold ScatterDims.start
  rw [dif_neg (by simp)]

/-- The row axis is an inserted window axis: the window coordinate there is 0. -/
theorem window_rows_zero : d.window (ix2 j c') 0 = 0 := by
  obtain ⟨uw, iw, sd, iv, wf⟩ := d
  simp only at h1 h2 h3 h4
  subst h1 h2 h3 h4
  unfold ScatterDims.window
  rw [dif_neg (by simp [ScatterDims.sKept, Shape.kept])]

/-- On the column axis the window coordinate is the update's column. -/
theorem window_rows_one : d.window (ix2 j c') 1 = c'.val := by
  obtain ⟨uw, iw, sd, iv, wf⟩ := d
  simp only at h1 h2 h3 h4
  subst h1 h2 h3 h4
  unfold ScatterDims.window
  rw [dif_pos (by simp [ScatterDims.sKept, Shape.kept])]
  rfl

/-- For an operand [N, C], scatter indices [M, 1] and updates [M, C] (the row axis inserted, the column axis the
    update window): update (j, c') lands on element (i, c) exactly when its start index, read signed, is i and
    c' = c. -/
theorem resultIdx?_rows (i : Fin N) (c : Fin C) :
    d.resultIdx? (ix2 j c') idx = some (ix2 i c) ↔ (idx (ix2 j (0 : Fin 1))).toInt = (i.val : ℤ) ∧ c' = c := by
  have s0 := start_rows_zero d h1 h2 h3 h4 idx j c'
  have s1 := start_rows_one d h1 h2 h3 h4 idx j c'
  have w0 := window_rows_zero d h1 h2 h3 h4 j c'
  have w1 := window_rows_one d h1 h2 h3 h4 j c'
  unfold ScatterDims.resultIdx?
  constructor
  · intro h
    split_ifs at h with hc
    have e := Option.some.inj h
    have e0 : (d.start (ix2 j c') idx 0 + (d.window (ix2 j c') 0 : ℕ)).toNat = i.val :=
      congrArg Fin.val (congrFun e 0)
    have e1 : (d.start (ix2 j c') idx 1 + (d.window (ix2 j c') 1 : ℕ)).toNat = c.val :=
      congrArg Fin.val (congrFun e 1)
    have hc0 := (hc 0).1
    rw [s0, w0] at e0 hc0
    rw [s1, w1] at e1
    refine ⟨by omega, Fin.ext (by omega)⟩
  · rintro ⟨ht, rfl⟩
    have hi := i.isLt
    have hc' := c'.isLt
    have hc : ∀ a : Fin 2, 0 ≤ d.start (ix2 j c') idx a + (d.window (ix2 j c') a : ℕ) ∧
        d.start (ix2 j c') idx a + (d.window (ix2 j c') a : ℕ) < ((![N, C] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 j c') idx 0 + (d.window (ix2 j c') 0 : ℕ)).toNat = i.val
      rw [s0, w0]; omega
    · show (d.start (ix2 j c') idx 1 + (d.window (ix2 j c') 1 : ℕ)).toNat = c'.val
      rw [s1, w1]; omega

end Rows

/-! ## Sums over a rank-1 index set -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The accumulating scatter read at an index -/

/-- (S1) The accumulating scatter into a VECTOR [N] at scatter indices [M, 1] with updates [M], read at element i:
    the operand's element plus the sum of the updates whose start index, read signed and not clamped, is i (an
    update whose index is outside the operand contributes nothing). -/
theorem scatterAdd_vec {φ : FTy} {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd (F := Ideal) d x idx upd (ix1 i) =
      x (ix1 i) + ∑ j : Fin M, if (idx (ix2 j (0 : Fin 1))).toInt = (i.val : ℤ) then upd (ix1 j) else 0 := by
  show x (ix1 i) + ∑ j ∈ Finset.univ.filter (fun j => d.resultIdx? j idx = some (ix1 i)), upd j = _
  congr 1
  rw [Finset.sum_filter, sum_idx1]
  exact Finset.sum_congr rfl fun j _ => if_congr (resultIdx?_vec d h1 h2 h3 h4 idx j i) rfl rfl

/-- (S2) The accumulating scatter of ROWS into [N, C] at scatter indices [M, 1] with updates [M, C], read at
    element (i, c): the operand's element plus the sum over the updates' rows whose start index, read signed and
    not clamped, is i, of their column c. -/
theorem scatterAdd_rows {φ : FTy} {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd (F := Ideal) d x idx upd (ix2 i c) =
      x (ix2 i c) + ∑ j : Fin M, if (idx (ix2 j (0 : Fin 1))).toInt = (i.val : ℤ) then upd (ix2 j c) else 0 := by
  show x (ix2 i c) + ∑ jj ∈ Finset.univ.filter (fun jj => d.resultIdx? jj idx = some (ix2 i c)), upd jj = _
  congr 1
  rw [Finset.sum_filter, sum_idx2]
  refine Finset.sum_congr rfl fun j _ => ?_
  rw [Finset.sum_congr rfl fun b _ => if_congr (resultIdx?_rows d h1 h2 h3 h4 idx j b i c) rfl rfl]
  by_cases ht : (idx (ix2 j (0 : Fin 1))).toInt = (i.val : ℤ)
  · simp only [ht, true_and, if_true]
    rw [Finset.sum_ite_eq' Finset.univ c (fun b => upd (ix2 j b)), if_pos (Finset.mem_univ c)]
  · simp only [ht, false_and, if_false, Finset.sum_const_zero]

/-! ## The same with the start index read unsigned -/

/-- A word reads i signed exactly when it reads i unsigned, for i below half the word range (a word at or above
    half the range reads negative signed). -/
theorem toInt_eq_natCast_iff {w : Nat} (a : BitVec w) (i : Nat) (hi : 2 * i < 2 ^ w) :
    a.toInt = (i : ℤ) ↔ a.toNat = i := by
  have ha := a.isLt
  rw [BitVec.toInt_eq_toNat_cond]
  split_ifs with h
  · exact Nat.cast_inj
  · constructor
    · intro e
      have : (2 ^ w : ℤ) = ((2 ^ w : ℕ) : ℤ) := by push_cast; rfl
      omega
    · intro e
      omega

/-- (S1') The accumulating scatter into a vector [N], N < 2³¹, at 32-bit indices, read at element i, with the
    start index read UNSIGNED: an index at or above 2³¹ is negative read signed and lands nowhere, and it is not
    i read unsigned either. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_vec d h1 h2 h3 h4]
  congr 1
  refine Finset.sum_congr rfl fun j _ => if_congr ?_ rfl rfl
  exact toInt_eq_natCast_iff _ _ (by have := i.isLt; omega)

/-- (S2') The accumulating scatter of rows into [N, C], N < 2³¹, at 32-bit indices, read at element (i, c), with
    the start index read UNSIGNED. -/
theorem scatterAdd_rows_toNat {φ : FTy} {N C M : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ 32)
    (upd : FVec Ideal ⟨2, ![M, C]⟩ φ) (hN : N < 2 ^ 31) (i : Fin N) (c : Fin C) :
    Host.scatterAdd (F := Ideal) d x idx upd (ix2 i c) =
      x (ix2 i c) + ∑ j : Fin M, if (idx (ix2 j (0 : Fin 1))).toNat = i.val then upd (ix2 j c) else 0 := by
  rw [scatterAdd_rows d h1 h2 h3 h4]
  congr 1
  refine Finset.sum_congr rfl fun j _ => if_congr ?_ rfl rfl
  exact toInt_eq_natCast_iff _ _ (by have := i.isLt; omega)

/-! ## The gather read at an index -/

/-- (G1) The gather from a VECTOR [N], N < 2³¹, at 32-bit start indices [M, 1] (the operand's one axis collapsed
    and start-indexed, the index vector on axis 1), read at result position j whose start index is in range: the
    operand at that index (in range nothing is clamped). -/
theorem gather_vec {α : Type} {N M : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ 32) (hN : N < 2 ^ 31) (j : Fin M)
    (hr : (idx (ix2 j (0 : Fin 1))).toNat < N) :
    Host.gather d x idx (ix1 j) = x (ix1 ⟨(idx (ix2 j (0 : Fin 1))).toNat, hr⟩) := by
  have e1 : (ix1 j : (⟨1, ![M]⟩ : Shape).Idx) = Shape.Idx.ofFin j := by
    funext a
    obtain rfl : a = 0 := Subsingleton.elim _ _
    rfl
  have e2 : StableHlo.Predicate.ixP j = ix2 j (0 : Fin 1) := by
    funext b
    match b with
    | ⟨0, _⟩ => rfl
    | ⟨1, _⟩ => rfl
  rw [e1, StableHlo.Predicate.gather_take d hcoll hob hsim hivd x idx j (by omega)]
  congr 1
  funext a
  obtain rfl : a = 0 := Subsingleton.elim _ _
  apply Fin.ext
  show min (idx (StableHlo.Predicate.ixP j)).toInt.toNat (N - 1) = (idx (ix2 j (0 : Fin 1))).toNat
  rw [e2, StableHlo.Predicate.toInt_eq_toNat_of_lt (by omega), Int.toNat_natCast]
  omega

section GatherRows
variable {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1) (j : Fin M) (c : Fin C)
include hoff hcoll hob hsim hivd

/-- Result position (j, c) reads its start index at (j, 0) of the start indices. -/
theorem siIdx_rows (k : Fin d.startIndexMap.length) : d.siIdx (ix2 j c) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the column axis the offset coordinate is the result's column. -/
theorem offCoord_rows_one : d.offCoord (ix2 j c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherRows

/-- (G2) The gather of ROWS from [N, C], N < 2³¹, at 32-bit start indices [M, 1] (the row axis collapsed and
    start-indexed, the column axis the one offset axis, the index vector on axis 1), read at (j, c) when row j's
    start index is in range: the operand at that row, column c. -/
theorem gather_rows {α : Type} {N C M : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ 32) (hN : N < 2 ^ 31) (j : Fin M) (c : Fin C)
    (hr : (idx (ix2 j (0 : Fin 1))).toNat < N) :
    Host.gather d x idx (ix2 j c) = x (ix2 ⟨(idx (ix2 j (0 : Fin 1))).toNat, hr⟩ c) := by
  have hb : ∀ a, a ∉ d.operandBatchingDims := by
    intro a
    rw [hob]
    exact List.not_mem_nil
  have hsl : d.sliceSizes 0 = 1 := d.slice_collapsed 0 (by rw [hcoll]; exact List.mem_singleton.mpr rfl)
  unfold Host.gather
  congr 1
  funext a
  apply Fin.ext
  revert a
  refine Fin.forall_fin_two.mpr ⟨?_, ?_⟩
  · show d.start (ix2 j c) idx 0 + d.batchCoord (ix2 j c) 0 + d.offCoord (ix2 j c) 0
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 j (0 : Fin 1))).toNat (N - 1) + 0 + 0 = _
    omega
  · show d.start (ix2 j c) idx 1 + d.batchCoord (ix2 j c) 1 + d.offCoord (ix2 j c) 1 = c.val
    rw [d.batchCoord_eq_zero _ _ (hb _), offCoord_rows_one d hoff hcoll hob hsim hivd]
    unfold GatherDims.start
    rw [dif_neg (by rw [hsim]; simp)]
    omega

/-! ## A padding and a two-piece concatenation along axis 0, read at an index -/

/-- (P) A VECTOR [N] padded after its end only (low 0, interior 0) to [T], read at k: the vector below its extent,
    the padding scalar at or above it. -/
theorem pad_vec_apply {α : Type} {N T : Nat} (hi : Fin 1 → Nat) (x : (⟨1, ![N]⟩ : Shape).Idx → α)
    (v : (⟨0, ![]⟩ : Shape).Idx → α) (h : (⟨1, ![N]⟩ : Shape).Pads ![0] hi ![0] ⟨1, ![T]⟩)
    (hu : 0 < (⟨0, ![]⟩ : Shape).numel) (k : Fin T) :
    pad ⟨1, ![T]⟩ ![0] hi ![0] x v h hu (ix1 k) = if hk : k.val < N then x (ix1 ⟨k.val, hk⟩) else v ix0 := by
  unfold pad
  split_ifs with hin hk hk
  · congr 1
    funext a
    obtain rfl : a = 0 := Subsingleton.elim _ _
    apply Fin.ext
    show (k.val - 0) / (0 + 1) = k.val
    omega
  · exfalso
    have := (hin 0).2.2
    change (k.val - 0) / (0 + 1) < N at this
    omega
  · exfalso
    refine hin fun a => ?_
    obtain rfl : a = 0 := Subsingleton.elim _ _
    show 0 ≤ k.val ∧ (k.val - 0) % (0 + 1) = 0 ∧ (k.val - 0) / (0 + 1) < N
    omega
  · exact congrArg v (eq_ix0 _)

/-- (P) ROWS [N, C] padded after the last row only (low 0, interior 0; the column axis not padded) to [T, C], read
    at (k, c): the rows below their extent, the padding scalar at or above it. -/
theorem pad_rows_apply {α : Type} {N C T : Nat} (hi : Fin 2 → Nat) (x : (⟨2, ![N, C]⟩ : Shape).Idx → α)
    (v : (⟨0, ![]⟩ : Shape).Idx → α) (h : (⟨2, ![N, C]⟩ : Shape).Pads ![0, 0] hi ![0, 0] ⟨2, ![T, C]⟩)
    (hu : 0 < (⟨0, ![]⟩ : Shape).numel) (k : Fin T) (c : Fin C) :
    pad ⟨2, ![T, C]⟩ ![0, 0] hi ![0, 0] x v h hu (ix2 k c)
      = if hk : k.val < N then x (ix2 ⟨k.val, hk⟩ c) else v ix0 := by
  have hc := c.isLt
  unfold pad
  split_ifs with hin hk hk
  · congr 1
    funext a
    apply Fin.ext
    revert a
    refine Fin.forall_fin_two.mpr ⟨?_, ?_⟩
    · show (k.val - 0) / (0 + 1) = k.val
      omega
    · show (c.val - 0) / (0 + 1) = c.val
      omega
  · exfalso
    have := (hin 0).2.2
    change (k.val - 0) / (0 + 1) < N at this
    omega
  · exfalso
    refine hin (Fin.forall_fin_two.mpr ⟨?_, ?_⟩)
    · show 0 ≤ k.val ∧ (k.val - 0) % (0 + 1) = 0 ∧ (k.val - 0) / (0 + 1) < N
      omega
    · show 0 ≤ c.val ∧ (c.val - 0) % (0 + 1) = 0 ∧ (c.val - 0) / (0 + 1) < C
      omega
  · exact congrArg v (eq_ix0 _)

/-- (C) Two vectors [N₁], [N₂] concatenated to [T], read at a position below the first extent: the first. -/
theorem concatenate_vec_left {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : k.val < N₁) :
    concatenate ⟨1, ![T]⟩ 0 [⟨⟨1, ![N₁]⟩, a⟩, ⟨⟨1, ![N₂]⟩, b⟩] h (ix1 k) = a (ix1 ⟨k.val, hk⟩) := by
  refine concatenate_pair_apply_left 0 a b h (ix1 k) rfl (ix1 ⟨k.val, hk⟩) fun c => ?_
  obtain rfl : c = 0 := Subsingleton.elim _ _
  rfl

/-- (C) Two vectors [N₁], [N₂] concatenated to [T], read at a position at or above the first extent: the second,
    the first extent less. -/
theorem concatenate_vec_right {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : N₁ ≤ k.val)
    (hk2 : k.val - N₁ < N₂) :
    concatenate ⟨1, ![T]⟩ 0 [⟨⟨1, ![N₁]⟩, a⟩, ⟨⟨1, ![N₂]⟩, b⟩] h (ix1 k) = b (ix1 ⟨k.val - N₁, hk2⟩) := by
  refine concatenate_pair_apply_right 0 a b h (ix1 k) rfl rfl (ix1 ⟨k.val - N₁, hk2⟩) (fun c hc => ?_) ?_
  · obtain rfl : c = 0 := Subsingleton.elim _ _
    exact absurd rfl hc
  · show k.val - N₁ + N₁ = k.val
    omega

/-! ## Sums over a range cut in two, and over a padded range -/

/-- A sum over [0, T) with T = N₁ + N₂ is the sum over [0, N₁) plus the sum over [N₁, T), the latter re-indexed
    from 0. -/
theorem sum_fin_split {A : Type*} [AddCommMonoid A] {N₁ N₂ T : Nat} (hT : T = N₁ + N₂) (f : Fin T → A) :
    ∑ k : Fin T, f k
      = ∑ k : Fin N₁, f ⟨k.val, by have := k.isLt; omega⟩ + ∑ k : Fin N₂, f ⟨N₁ + k.val, by have := k.isLt; omega⟩ := by
  subst hT
  rw [Fin.sum_univ_add]
  rfl

/-- A sum over a padded range [0, T) of a family that is zero at and above N ≤ T is the sum over [0, N). -/
theorem sum_fin_padded {A : Type*} [AddCommMonoid A] {N T : Nat} (hNT : N ≤ T) (f : Fin N → A) :
    ∑ k : Fin T, (if hk : k.val < N then f ⟨k.val, hk⟩ else 0) = ∑ k : Fin N, f k := by
  obtain ⟨H, rfl⟩ := Nat.exists_eq_add_of_le hNT
  rw [Fin.sum_univ_add]
  have h2 : ∑ k : Fin H, (if hk : (Fin.natAdd N k).val < N then f ⟨(Fin.natAdd N k).val, hk⟩ else 0) = 0 :=
    Finset.sum_eq_zero fun k _ => dif_neg (by simp)
  rw [h2, add_zero]
  refine Finset.sum_congr rfl fun k _ => ?_
  rw [dif_pos (by simp)]
  rfl

end Cert.LibScatter
-- ==== Proof.RefValue.lean ====
/-
  The reference's result is the specification: under the precondition every presynaptic word names a unit, so the
  word is not negative (the wrap of negative words is the identity on it), the gather of the spike mask reads that
  unit without clamping, and the accumulating scatter into the zero vector at neuron j sums the masked weights of the
  synapses whose postsynaptic word, read signed, is j (a word outside the vector lands nowhere).
-/
import proofs.«430677_j34170759807367_3_alg».proof.Proof.Gen.ReferenceIdeal.Run
import proofs.«430677_j34170759807367_3_alg».proof.Proof.Gen.ReferenceIdeal.Read
import proofs.«430677_j34170759807367_3_alg».proof.Proof.Spec
import proofs.«430677_j34170759807367_3_alg».proof.Proof.LibScatter
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen Cert.ReferenceIdeal.Read

/-- The presynaptic word of synapse n, as the reference reads it: column 1 of the index array. -/
theorem pre_word (x1 : (⟨S20000000x2, .i32⟩ : BufTy).Contents (Elt Ideal)) (n : Fin 20000000) :
    val_main_v3 (F := Ideal) x1 (ix1 n) = x1 (ix2 n (1 : Fin 2)) := by
  rw [val_main_v3_apply, val_main_v2_apply]
  congr 1
  funext a
  match a with
  | ⟨0, _⟩ => exact Fin.ext (Nat.div_one _)
  | ⟨1, _⟩ => rfl

/-- The postsynaptic word of synapse n, as the scatter reads it: column 0 of the index array. -/
theorem post_word (x1 : (⟨S20000000x2, .i32⟩ : BufTy).Contents (Elt Ideal)) (n : Fin 20000000) :
    val_main_v17 (F := Ideal) x1 (ix2 n (0 : Fin 1)) = x1 (ix2 n (0 : Fin 2)) := by
  rw [val_main_v17_apply, val_main_v1_apply, val_main_v0_apply]
  congr 1
  funext a
  match a with
  | ⟨0, _⟩ => exact Fin.ext (Nat.div_one _)
  | ⟨1, _⟩ => rfl

/-- A word below 17400 read unsigned is not negative read signed. -/
theorem slt_zero_of_small (p : BitVec 32) (hp : p.toNat < 17400) : IntOp.cmpi .slt p 0#32 = 0#1 := by
  unfold IntOp.cmpi
  have h : p.slt 0#32 = false := by
    rw [BitVec.slt, decide_eq_false_iff_not, BitVec.toInt_eq_toNat_cond]
    have e0 : (0#32 : BitVec 32).toInt = 0 := by decide
    rw [e0, if_pos (by omega)]
    omega
  rw [h]
  rfl

/-- The gather's start index of synapse n: the wrap of negative words leaves a word that names a unit alone. -/
theorem start_word (x1 : (⟨S20000000x2, .i32⟩ : BufTy).Contents (Elt Ideal)) (n : Fin 20000000)
    (hp : (x1 (ix2 n (1 : Fin 2))).toNat < 17400) :
    val_main_v12 (F := Ideal) x1 (ix2 n (0 : Fin 1)) = x1 (ix2 n (1 : Fin 2)) := by
  have e : idx_main_v12 (ix2 n (0 : Fin 1)) = ix1 n := by
    funext a
    match a with
    | ⟨0, _⟩ => rfl
  rw [val_main_v12_apply, e, val_main_v11_apply, val_main_v8_apply, val_main_v7_apply, val_main_c_apply, pre_word,
    slt_zero_of_small _ hp, select_zero]

/-- The gathered spike bit of synapse n is the spike of the unit its presynaptic word names. -/
theorem mask_word (x0 : (⟨S1x17400, .f32⟩ : BufTy).Contents (Elt Ideal)) (x1 : (⟨S20000000x2, .i32⟩ : BufTy).Contents (Elt Ideal))
    (n : Fin 20000000) (hp : (x1 (ix2 n (1 : Fin 2))).toNat < 17400) :
    val_main_v13 (F := Ideal) x0 x1 (ix1 n) = Cert.Syn.act x0 (x1 (ix2 n (1 : Fin 2))) := by
  have hs := start_word x1 n hp
  unfold val_main_v13
  generalize val_main_v12 (F := Ideal) x1 = idx at hs
  have hr : (idx (ix2 n (0 : Fin 1))).toNat < 17400 := by rw [hs]; exact hp
  refine (Cert.LibScatter.gather_vec gather_S17400_S20000000x1_S20000000_n_0_n_n_0_1_1 rfl rfl rfl rfl
    (val_main_v6 (F := Ideal) x0) idx (by norm_num) n hr).trans ?_
  rw [val_main_v6_apply, val_main_v4_apply, val_main_v5_apply, val_main_cst_apply]
  unfold Cert.Syn.act
  rw [dif_pos hp]
  congr 2
  funext a
  match a with
  | ⟨0, _⟩ => rfl
  | ⟨1, _⟩ => exact Fin.ext (by
      show (idx (ix2 n (0 : Fin 1))).toNat % 17400 = (x1 (ix2 n (1 : Fin 2))).toNat
      rw [hs, Nat.mod_eq_of_lt hp])

/-- The scattered update of synapse n is the synapse's term of the specification. -/
theorem upd_word (x0 : (⟨S1x17400, .f32⟩ : BufTy).Contents (Elt Ideal)) (x1 : (⟨S20000000x2, .i32⟩ : BufTy).Contents (Elt Ideal))
    (x2 x3 : (⟨S20000000, .f32⟩ : BufTy).Contents (Elt Ideal))
    (n : Fin 20000000) (hp : (x1 (ix2 n (1 : Fin 2))).toNat < 17400) :
    val_main_v15 (F := Ideal) x0 x1 x2 x3 (ix1 n) = Cert.Syn.syn x0 x1 x2 x3 n := by
  rw [val_main_v15_apply, mask_word x0 x1 n hp, val_main_v14_apply, val_main_call0_v0_apply, val_main_cst_1_apply]
  unfold Cert.Syn.syn
  congr 1
  exact Ideal.ofBits_zero_f32

theorem val_eq_result (x0 : (⟨S1x17400, .f32⟩ : BufTy).Contents (Elt Ideal)) (x1 : (⟨S20000000x2, .i32⟩ : BufTy).Contents (Elt Ideal))
    (x2 x3 : (⟨S20000000, .f32⟩ : BufTy).Contents (Elt Ideal))
    (hpre : ∀ n : Fin 20000000, (x1 (ix2 n (1 : Fin 2))).toNat < 17400) :
    val_main_v19 (F := Ideal) x0 x1 x2 x3 = Cert.Syn.result x0 x1 x2 x3 := by
  funext i
  have ei : idx_main_v19 i = ix1 (⟨(i 1).val, (i 1).isLt⟩ : Fin 51978) := by
    funext a
    match a with
    | ⟨0, _⟩ => rfl
  rw [val_main_v19_apply, ei]
  unfold val_main_v18
  have hu : ∀ n : Fin 20000000, val_main_v15 (F := Ideal) x0 x1 x2 x3 (ix1 n) = Cert.Syn.syn x0 x1 x2 x3 n :=
    fun n => upd_word x0 x1 x2 x3 n (hpre n)
  have hq : ∀ n : Fin 20000000, val_main_v17 (F := Ideal) x1 (ix2 n (0 : Fin 1)) = x1 (ix2 n (0 : Fin 2)) :=
    fun n => post_word x1 n
  have hz : val_main_v16 (F := Ideal) (ix1 (⟨(i 1).val, (i 1).isLt⟩ : Fin 51978)) = 0 := by
    rw [val_main_v16_apply, val_main_cst_2_apply]
    exact Ideal.ofBits_zero_f32
  generalize val_main_v15 (F := Ideal) x0 x1 x2 x3 = upd at hu
  generalize val_main_v17 (F := Ideal) x1 = idx at hq
  generalize val_main_v16 (F := Ideal) = opnd at hz
  refine (Cert.LibScatter.scatterAdd_vec scatter_S51978_S20000000x1_S20000000_n_0_0_1 rfl rfl rfl rfl opnd idx upd
    (⟨(i 1).val, (i 1).isLt⟩ : Fin 51978)).trans ?_
  rw [hz, zero_add]
  show _ = Cert.Syn.G x0 x1 x2 x3 (i 1).val
  unfold Cert.Syn.G
  refine Finset.sum_congr rfl fun n _ => ?_
  rw [hq n, hu n]

end Cert.ReferenceIdeal.RefValue

end
-- ==== Proof.KerPieces.lean ====
/-
  What each control case of the kernel body leaves in the output block's staging buffer, as one pure term.

  Case B (every chunk of a core but the first): the one covering store writes the scatter payload over the block as
  the chunk before left it. Case A (a core's first chunk): the block is first set to zero and read back, so the same
  payload is written over the zero block. The input blocks enter through their whole-buffer loads.
-/
import proofs.«430677_j34170759807367_3_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The scatter payload over the input blocks (pre, post, weight, table) and a given earlier block. -/
abbrev step (x0 x1 : Vec F S1x2048x1 .i32) (x2 : Vec F S1x2048x1 .f32) (x3 : Vec F S128x256 .bf16)
    (acc : Vec F S1x256x256 .f32) : Vec F S1x256x256 .f32 :=
  k0_pay1 (k0_pay4 x2) (k0_pay5 x1) (k0_pay6 x1) (iota .tc S2048x256 32 [1] Cert.KernelIdeal.Facts₀.iota_S2048x256_d1_w32)
    (k0_pay7 x0 x3) (Scalar.ofBits .f32 0x00000000#32) acc

/-- Case B leaves the payload over the block it found. -/
theorem out_B (c : Dev nD) (i : grid0.Coords) (a2 : Memref sig .tc .vmem S1x2048x1 .i32) (h2 : a2.IsWhole)
    (a3 : Memref sig .tc .vmem S1x2048x1 .i32) (h3 : a3.IsWhole) (a4 : Memref sig .tc .vmem S1x2048x1 .f32) (h4 : a4.IsWhole)
    (a5 : Memref sig .tc .vmem S128x256 .bf16) (h5 : a5.IsWhole) (a6 : Memref sig .tc .vmem S1x256x256 .f32) (h6 : a6.IsWhole)
    (hc : ¬cond0_0 i) (x0 x1 : Vec F S1x2048x1 .i32) (x2 : Vec F S1x2048x1 .f32) (x3 : Vec F S128x256 .bf16)
    (xo4 : Vec F S1x256x256 .f32) :
    out0_B_4 c i a2 h2 a3 h3 a4 h4 a5 h5 a6 h6 hc x0 x1 x2 x3 xo4 = step x0 x1 x2 x3 xo4 := by
  unfold out0_B_4
  rw [View.read_writes_eq_canon _ _ _ (cover0_B_4 c i a2 h2 a3 h3 a4 h4 a5 h5 a6 h6 hc x0 x1 x2 x3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x2048x1) hz3, View.ld_unit_zero (S := S128x256) hz2, View.ld_unit_zero (S := S1x256x256) hz3]

/-- Case A leaves the payload over the zero block. -/
theorem out_A (c : Dev nD) (i : grid0.Coords) (a2 : Memref sig .tc .vmem S1x2048x1 .i32) (h2 : a2.IsWhole)
    (a3 : Memref sig .tc .vmem S1x2048x1 .i32) (h3 : a3.IsWhole) (a4 : Memref sig .tc .vmem S1x2048x1 .f32) (h4 : a4.IsWhole)
    (a5 : Memref sig .tc .vmem S128x256 .bf16) (h5 : a5.IsWhole) (a6 : Memref sig .tc .vmem S1x256x256 .f32) (h6 : a6.IsWhole)
    (hc : cond0_0 i) (x0 x1 : Vec F S1x2048x1 .i32) (x2 : Vec F S1x2048x1 .f32) (x3 : Vec F S128x256 .bf16) :
    out0_A_4 c i a2 h2 a3 h3 a4 h4 a5 h5 a6 h6 hc x0 x1 x2 x3 = step x0 x1 x2 x3 (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x256x256) hz3, View.readCov_unit_zero (S := S1x256x256) _ hz3]
  simp only [View.readAt_eq_ld, h2.read_unread, h3.read_unread, h4.read_unread, h5.read_unread,
    View.ld_unit_zero (S := S1x2048x1) hz3, View.ld_unit_zero (S := S128x256) hz2, View.ld_unit_zero (S := S1x256x256) hz3]

end Cert.KernelIdeal.Pieces

end
-- ==== Proof.KerGather.lean ====
/-
  The kernel body's gather at the ideal instance, read entry by entry.

  pay7_apply: row s of the one-hot of the presynaptic word's high part (the word shifted right by 8, compared with
  0 … 127) times the 128 × 256 spike table picks the table's row; the lane-wise product with the one-hot of the low
  byte and the lane sum pick its column: the entry of the table the word names, or 0 when the high part names no
  row (a product with a 0/1 indicator is the factor or zero, and a sum with one live term is that term). The
  payload asks whether that entry is more than one half.
  pay2_apply, pay4_apply, pay5_apply, pay6_apply: the zero block, the weight column, the two byte columns.
-/
import proofs.«430677_j34170759807367_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen
open Cert.KernelIdeal.Facts₀ Cert.KernelIdeal.Facts

/-! ## Layout operations on a column, read at coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane sum -/

/-- The index over row `s` with lane `l` put back is `(s, l)`. -/
theorem lift_lane (h : S2048x256.Reduces [1] S2048) (s : Fin 2048) (l : Fin 256) : h.lift (ix1 s) l = ix2 s l :=
  funext fun a => Fin.ext (by
    match a with
    | ⟨0, _⟩ => rfl
    | ⟨1, _⟩ => rfl)

/-- The sum over the 256 lanes of row `s`. -/
theorem laneSum_apply (src : FVec Ideal S2048x256 .f32) (h : S2048x256.Reduces [1] S2048) (hφ : FKind.Formats .f32)
    (hacc : (0x00000000#32 : BitVec 32) = 0x00000000#32) (s : Fin 2048) :
    multiReduction .add [1] S2048 src 0x00000000#32 h hφ hacc (ix1 s) = ∑ l : Fin 256, src (ix2 s l) :=
  (Ideal.multiReduction_add_single src 0x00000000#32 h hφ hacc (ix1 s)).trans
    (Finset.sum_congr rfl fun l _ => congrArg src (lift_lane h s l))

/-! ## The product of a `2048 × 128` by a `128 × 256` matrix -/

theorem lhs_dot_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl

theorem lhs_dot_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q

theorem rhs_dot_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q

theorem rhs_dot_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- Entry `(s, l)` of the product is the sum over `k` of the left factor at `(s, k)` times the right at `(k, l)`. -/
theorem matmul_apply_ix (lhs : FVec Ideal S2048x128 .bf16) (rhs : FVec Ideal S128x256 .bf16) (s : Fin 2048) (l : Fin 256) :
    matmul dot_S2048x128_S128x256_S2048x256_1_0_0_1_n_n none lhs rhs (constant (F := Ideal) S2048x256 .f32 0x00000000#32) (ix2 s l)
      = ∑ k : Fin 128, lhs (ix2 s k) * rhs (ix2 k l) := by
  simp only [matmul]
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 s l) ((contrEquiv1 dot_S2048x128_S128x256_S2048x256_1_0_0_1_n_n 128 rfl rfl).symm k) = ix2 s k := funext fun a => Fin.ext (by
    match a with
    | ⟨0, _⟩ => exact lhs_dot_0 _ _
    | ⟨1, _⟩ => exact (lhs_dot_1 _ _).trans hk)
  have er : dot_S2048x128_S128x256_S2048x256_1_0_0_1_n_n.rhsIdx (ix2 s l) ((contrEquiv1 dot_S2048x128_S128x256_S2048x256_1_0_0_1_n_n 128 rfl rfl).symm k) = ix2 k l := funext fun a => Fin.ext (by
    match a with
    | ⟨0, _⟩ => exact (rhs_dot_0 _ _).trans hk
    | ⟨1, _⟩ => exact rhs_dot_1 _ _)
  rw [el, er]

/-! ## One-hot indicators on the extended reals -/

/-- A one-bit word widened to 32 bits and converted is the number 1 for the bit 1 and 0 for the bit 0. -/
theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with h | h <;> subst h
  · have e : ((0#1).setWidth 32).toInt = 0 := by decide
    rw [e, if_neg (by decide)]; simp
  · have e : ((1#1).setWidth 32).toInt = 1 := by decide
    rw [e, if_pos rfl]; simp

/-- Comparing the word of a number `k` below `2 ^ 32` with a word `x` asks whether `k` is `x` read unsigned. -/
theorem cmpi_eq_ofNat (k : ℕ) (hk : k < 2 ^ 32) (x : BitVec 32) :
    IntOp.cmpi .eq (BitVec.ofNat 32 k) x = if k = x.toNat then 1#1 else 0#1 := by
  show BitVec.ofBool (BitVec.ofNat 32 k == x) = _
  by_cases h : k = x.toNat
  · subst h
    rw [if_pos rfl, BitVec.ofNat_toNat, BitVec.setWidth_eq]
    simp
  · rw [if_neg h]
    have hne : (BitVec.ofNat 32 k == x) = false := by
      rw [beq_eq_false_iff_ne]
      intro e
      apply h
      rw [← e, BitVec.toNat_ofNat, Nat.mod_eq_of_lt hk]
    rw [hne]
    rfl

/-- The one-hot entry: 1 where `k` is the word read unsigned, else 0. -/
theorem onehot_apply (k : ℕ) (hk : k < 2 ^ 32) (x : BitVec 32) :
    FloatOps.sitofp (F := Ideal) .f32 ((IntOp.cmpi .eq (BitVec.ofNat 32 k) x).setWidth 32)
      = if k = x.toNat then (1 : EReal) else 0 := by
  rw [sitofp_bit, cmpi_eq_ofNat k hk x]
  by_cases h : k = x.toNat
  · rw [if_pos h, if_pos rfl, if_pos h]
  · rw [if_neg h, if_neg (by decide), if_neg h]

/-- A sum against a one-hot row on the left has at most one live term. -/
theorem sum_onehot_mul (n : ℕ) (x : ℕ) (g : ℕ → EReal) :
    ∑ k : Fin n, (if k.val = x then (1 : EReal) else 0) * g k.val = if x < n then g x else 0 := by
  by_cases h : x < n
  · rw [if_pos h, Finset.sum_eq_single (⟨x, h⟩ : Fin n)]
    · rw [if_pos rfl, one_mul]
    · intro b _ hb
      rw [if_neg (fun e => hb (Fin.ext e)), zero_mul]
    · intro hmem
      exact absurd (Finset.mem_univ _) hmem
  · rw [if_neg h]
    refine Finset.sum_eq_zero fun k _ => ?_
    rw [if_neg (by have := k.isLt; omega), zero_mul]

/-- The same with the one-hot row on the right. -/
theorem sum_mul_onehot (n : ℕ) (x : ℕ) (g : ℕ → EReal) :
    ∑ k : Fin n, g k.val * (if k.val = x then (1 : EReal) else 0) = if x < n then g x else 0 := by
  rw [← sum_onehot_mul n x g]
  exact Finset.sum_congr rfl fun k _ => mul_comm _ _

/-- The low byte of a word is below 256. -/
theorem andi_255_lt (p : BitVec 32) : (IntOp.andi p 255#32).toNat < 256 := by
  show (p &&& 255#32).toNat < 256
  rw [BitVec.toNat_and]
  exact Nat.lt_succ_of_le Nat.and_le_right

/-! ## The one-hot matrices of a column of words -/

/-- Entry `(s, k)` of the one-hot of a column of words against the 128 lane numbers. -/
theorem onehot128_apply (w : IVec S2048x1 32) (h1 : S2048x128.Iotas .tc 32 [1]) (h2 : S2048x1.Broadcasts S2048x128)
    (h3 : 1 < 32) (h4 : FTy.bits .bf16 < FTy.bits .f32) (s : Fin 2048) (k : Fin 128) (x : BitVec 32)
    (hw : w (ix2 s (0 : Fin 1)) = x) :
    (truncf .bf16 (sitofp (F := Ideal) .f32
        (extui 32 (cmpi .eq (iota .tc S2048x128 32 [1] h1) (broadcastTo S2048x128 w h2)) h3)) h4 : FVec Ideal S2048x128 .bf16) (ix2 s k)
      = if k.val = x.toNat then (1 : EReal) else 0 := by
  show FloatOps.sitofp (F := Ideal) .f32
      ((IntOp.cmpi .eq (iota .tc S2048x128 32 [1] h1 (ix2 s k)) (broadcastTo S2048x128 w h2 (ix2 s k))).setWidth 32) = _
  rw [iota_single_apply, broadcastTo_a1_ab_apply, hw]
  exact onehot_apply k.val (by have := k.isLt; omega) x

/-- Entry `(s, l)` of the one-hot of a column of words against the 256 lane numbers. -/
theorem onehot256_apply (w : IVec S2048x1 32) (h1 : S2048x256.Iotas .tc 32 [1]) (h2 : S2048x1.Broadcasts S2048x256)
    (h3 : 1 < 32) (s : Fin 2048) (l : Fin 256) (x : BitVec 32) (hw : w (ix2 s (0 : Fin 1)) = x) :
    (sitofp (F := Ideal) .f32
        (extui 32 (cmpi .eq (iota .tc S2048x256 32 [1] h1) (broadcastTo S2048x256 w h2)) h3) : FVec Ideal S2048x256 .f32) (ix2 s l)
      = if l.val = x.toNat then (1 : EReal) else 0 := by
  show FloatOps.sitofp (F := Ideal) .f32
      ((IntOp.cmpi .eq (iota .tc S2048x256 32 [1] h1 (ix2 s l)) (broadcastTo S2048x256 w h2 (ix2 s l))).setWidth 32) = _
  rw [iota_single_apply, broadcastTo_a1_ab_apply, hw]
  exact onehot_apply l.val (by have := l.isLt; omega) x

/-- Row `s` of the one-hot of the high parts times the table: the table's row the high part names, or zeros. -/
theorem gatherRow_apply (w : IVec S2048x1 32) (v24 : FVec Ideal S128x256 .bf16) (T : ℕ → EReal)
    (hT : ∀ (k : Fin 128) (l : Fin 256), v24 (ix2 k l) = T (256 * k.val + l.val))
    (h1 : S2048x128.Iotas .tc 32 [1]) (h2 : S2048x1.Broadcasts S2048x128) (h3 : 1 < 32)
    (h4 : FTy.bits .bf16 < FTy.bits .f32) (h5 : S128x256.ShapeCasts S128x256) (s : Fin 2048) (l : Fin 256) (x : BitVec 32)
    (hw : w (ix2 s (0 : Fin 1)) = x) :
    matmul dot_S2048x128_S128x256_S2048x256_1_0_0_1_n_n none
        (truncf .bf16 (sitofp (F := Ideal) .f32
          (extui 32 (cmpi .eq (iota .tc S2048x128 32 [1] h1) (broadcastTo S2048x128 w h2)) h3)) h4)
        (shapeCast S128x256 v24 h5) (constant (F := Ideal) S2048x256 .f32 0x00000000#32) (ix2 s l)
      = if x.toNat < 128 then T (256 * x.toNat + l.val) else 0 := by
  refine (matmul_apply_ix _ _ s l).trans ?_
  rw [← sum_onehot_mul 128 x.toNat (fun k => T (256 * k + l.val))]
  refine Finset.sum_congr rfl fun k _ => ?_
  exact congrArg₂ (· * ·) (onehot128_apply w h1 h2 h3 h4 s k x hw)
    ((congrFun (shapeCast_self v24 h5) (ix2 k l)).trans (hT k l))

/-! ## The payloads -/

theorem pay2_apply (i : S1x256x256.Idx) : k0_pay2 (F := Ideal) i = Ideal.ofBits .f32 0x00000000#32 := by
  rfl

theorem pay4_apply (v7 : Vec Ideal S1x2048x1 .f32) (s : Fin 2048) :
    k0_pay4 (F := Ideal) v7 (ix2 s (0 : Fin 1)) = v7 (ix3 (0 : Fin 1) s (0 : Fin 1)) := by
  unfold k0_pay4
  exact shapeCast_1ab_ab_apply v7 _ s (0 : Fin 1)

theorem pay5_apply (v5 : Vec Ideal S1x2048x1 .i32) (s : Fin 2048) :
    k0_pay5 (F := Ideal) v5 (ix2 s (0 : Fin 1)) = IntOp.shrsi .vector (v5 (ix3 (0 : Fin 1) s (0 : Fin 1))) 8#32 := by
  unfold k0_pay5 k0_pay3
  exact congrArg (fun x => IntOp.shrsi .vector x 8#32) (shapeCast_1ab_ab_apply v5 _ s (0 : Fin 1))

theorem pay6_apply (v5 : Vec Ideal S1x2048x1 .i32) (s : Fin 2048) :
    k0_pay6 (F := Ideal) v5 (ix2 s (0 : Fin 1)) = IntOp.andi (v5 (ix3 (0 : Fin 1) s (0 : Fin 1))) 255#32 := by
  unfold k0_pay6 k0_pay3
  exact congrArg (fun x => IntOp.andi x 255#32) (shapeCast_1ab_ab_apply v5 _ s (0 : Fin 1))

theorem pay7_apply (v3 : Vec Ideal S1x2048x1 .i32) (v24 : Vec Ideal S128x256 .bf16) (T : ℕ → EReal)
    (hT : ∀ (k : Fin 128) (l : Fin 256), v24 (ix2 k l) = T (256 * k.val + l.val)) (s : Fin 2048) :
    k0_pay7 (F := Ideal) v3 v24 (ix2 s (0 : Fin 1))
      = Ideal.cmp .ogt
          (if (IntOp.shrsi .vector (v3 (ix3 (0 : Fin 1) s (0 : Fin 1))) 8#32).toNat < 128 then
            T (256 * (IntOp.shrsi .vector (v3 (ix3 (0 : Fin 1) s (0 : Fin 1))) 8#32).toNat
                + (IntOp.andi (v3 (ix3 (0 : Fin 1) s (0 : Fin 1))) 255#32).toNat)
           else 0)
          (Ideal.ofBits .f32 0x3F000000#32) := by
  unfold k0_pay7
  refine congrArg (fun x => Ideal.cmp .ogt x (Ideal.ofBits .f32 0x3F000000#32)) ?_
  refine (shapeCast_a_a1_apply _ _ s (0 : Fin 1)).trans ?_
  refine (laneSum_apply _ _ _ _ s).trans ?_
  have hlo : (IntOp.andi (v3 (ix3 (0 : Fin 1) s (0 : Fin 1))) 255#32).toNat < 256 := andi_255_lt _
  refine Eq.trans ?_ ((sum_mul_onehot 256 (IntOp.andi (v3 (ix3 (0 : Fin 1) s (0 : Fin 1))) 255#32).toNat
    (fun n => if (IntOp.shrsi .vector (v3 (ix3 (0 : Fin 1) s (0 : Fin 1))) 8#32).toNat < 128 then
      T (256 * (IntOp.shrsi .vector (v3 (ix3 (0 : Fin 1) s (0 : Fin 1))) 8#32).toNat + n) else 0)).trans (if_pos hlo))
  refine Finset.sum_congr rfl fun l _ => ?_
  exact congrArg₂ (· * ·)
    (gatherRow_apply _ v24 T hT _ _ _ _ _ s l _ (pay5_apply v3 s))
    (onehot256_apply _ _ _ _ s l _ (pay6_apply v3 s))

end Cert.KernelIdeal.Body

end
-- ==== Proof.KerScatter.lean ====
/-
  The kernel body's scatter at the ideal instance, read entry by entry.

  pay1_apply: the contraction over the chunk's 2048 synapses of (selected weight × one-hot of the postsynaptic high
  part) against (one-hot of the postsynaptic low byte), added to the block as it stood: entry (h, l) is the entry
  before plus the sum of the selected weights of the synapses whose high part is h and whose low byte is l (a
  product with a 0/1 indicator is the factor or zero, which holds for every extended real).
-/
import proofs.«430677_j34170759807367_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen
open Cert.KernelIdeal.Facts₀ Cert.KernelIdeal.Facts

namespace Scatter

/-! ## The two layout operations of the scatter that are read at coordinates -/

/-- A column [a, 1] broadcast to [a, b] reads, at (p, c), the column's entry of row p. -/
theorem broadcastTo_a1_ab_apply {α : Type} {a b : ℕ} (v : (⟨2, ![a, 1]⟩ : Shape).Idx → α)
    (hb : (⟨2, ![a, 1]⟩ : Shape).Broadcasts ⟨2, ![a, b]⟩) (p : Fin a) (c : Fin b) :
    broadcastTo ⟨2, ![a, b]⟩ v hb (ix2 p c) = v (ix2 p (0 : Fin 1)) := by
  refine broadcastTo_apply v hb (ix2 p c) (ix2 p (0 : Fin 1)) fun ax => ?_
  match ax with
  | ⟨0, _⟩ =>
    show p.val = if a = 1 then 0 else p.val
    split
    · have := p.isLt; omega
    · rfl
  | ⟨1, _⟩ => rfl

/-! ## The contraction over the synapse axis of both operands -/

/-- On the left operand's contracted axis (its rows) the operand index is the synapse. -/
theorem lhs_scatter_0 (h l : Fin 256) (s : Fin 2048) :
    (dot_S2048x256_S2048x256_S256x256_0_0_1_1_n_n.lhsIdx (ix2 h l)
        ((contrEquiv1 dot_S2048x256_S2048x256_S256x256_0_0_1_1_n_n 2048 rfl rfl).symm s) 0).val = s.val :=
  (DotDims.lhsIdx_val_of_single dot_S2048x256_S2048x256_S256x256_0_0_1_1_n_n (cl := 0) rfl (ix2 h l) _).trans
    (contrEquiv1_symm_val dot_S2048x256_S2048x256_S256x256_0_0_1_1_n_n 2048 rfl rfl s)

/-- On the left operand's kept axis (its columns) the operand index is the result's row. -/
theorem lhs_scatter_1 (h l : Fin 256) (k : dot_S2048x256_S2048x256_S256x256_0_0_1_1_n_n.contr.Idx) :
    (dot_S2048x256_S2048x256_S256x256_0_0_1_1_n_n.lhsIdx (ix2 h l) k 1).val = h.val := by
  unfold DotDims.lhsIdx
  rw [dif_neg (show ¬(1 : Fin S2048x256.rank) ∈ dot_S2048x256_S2048x256_S256x256_0_0_1_1_n_n.lhsBatch by decide),
    dif_pos (show (1 : Fin S2048x256.rank) ∈ dot_S2048x256_S2048x256_S256x256_0_0_1_1_n_n.lhsNonContracting by decide)]
  rfl

/-- On the right operand's contracted axis (its rows) the operand index is the synapse. -/
theorem rhs_scatter_0 (h l : Fin 256) (s : Fin 2048) :
    (dot_S2048x256_S2048x256_S256x256_0_0_1_1_n_n.rhsIdx (ix2 h l)
        ((contrEquiv1 dot_S2048x256_S2048x256_S256x256_0_0_1_1_n_n 2048 rfl rfl).symm s) 0).val = s.val :=
  (DotDims.rhsIdx_val_of_single dot_S2048x256_S2048x256_S256x256_0_0_1_1_n_n (cr := 0) rfl (ix2 h l) _).trans
    (contrEquiv1_symm_val dot_S2048x256_S2048x256_S256x256_0_0_1_1_n_n 2048 rfl rfl s)

/-- On the right operand's kept axis (its columns) the operand index is the result's column. -/
theorem rhs_scatter_1 (h l : Fin 256) (k : dot_S2048x256_S2048x256_S256x256_0_0_1_1_n_n.contr.Idx) :
    (dot_S2048x256_S2048x256_S256x256_0_0_1_1_n_n.rhsIdx (ix2 h l) k 1).val = l.val := by
  unfold DotDims.rhsIdx
  rw [dif_neg (show ¬(1 : Fin S2048x256.rank) ∈ dot_S2048x256_S2048x256_S256x256_0_0_1_1_n_n.rhsBatch by decide),
    dif_pos (show (1 : Fin S2048x256.rank) ∈ dot_S2048x256_S2048x256_S256x256_0_0_1_1_n_n.rhsNonContracting by decide)]
  rfl

/-- The product Aᵀ · B of two [2048, 256] operands from a zero accumulator: entry (h, l) is the sum over the
    2048 rows s of A(s, h) · B(s, l). -/
theorem scatter_matmul_apply (A B : FVec Ideal S2048x256 .bf16) (h l : Fin 256) :
    matmul dot_S2048x256_S2048x256_S256x256_0_0_1_1_n_n none A B (constant (F := Ideal) S256x256 .f32 0x00000000#32) (ix2 h l)
      = ∑ s : Fin 2048, A (ix2 s h) * B (ix2 s l) := by
  refine (Ideal.matmul_constant_zero_apply dot_S2048x256_S2048x256_S256x256_0_0_1_1_n_n none A B (ix2 h l)).trans ?_
  rw [← Equiv.sum_comp (contrEquiv1 dot_S2048x256_S2048x256_S256x256_0_0_1_1_n_n 2048 rfl rfl).symm]
  refine Finset.sum_congr rfl fun s _ => ?_
  have el : dot_S2048x256_S2048x256_S256x256_0_0_1_1_n_n.lhsIdx (ix2 h l)
      ((contrEquiv1 dot_S2048x256_S2048x256_S256x256_0_0_1_1_n_n 2048 rfl rfl).symm s) = ix2 s h := by
    funext ax; apply Fin.ext
    match ax with
    | ⟨0, _⟩ => exact lhs_scatter_0 h l s
    | ⟨1, _⟩ => exact lhs_scatter_1 h l _
  have er : dot_S2048x256_S2048x256_S256x256_0_0_1_1_n_n.rhsIdx (ix2 h l)
      ((contrEquiv1 dot_S2048x256_S2048x256_S256x256_0_0_1_1_n_n 2048 rfl rfl).symm s) = ix2 s l := by
    funext ax; apply Fin.ext
    match ax with
    | ⟨0, _⟩ => exact rhs_scatter_0 h l s
    | ⟨1, _⟩ => exact rhs_scatter_1 h l _
  rw [el, er]

/-! ## The one-hot factors -/

/-- The 0/1 word of an equality test, widened to 32 bits and converted, is the extended real 1 when the
    two words agree and 0 when they do not. -/
theorem indicator_val (x y : BitVec 32) :
    (FloatOps.sitofp (F := Ideal) .f32 ((IntOp.cmpi .eq x y).setWidth 32) : EReal) = if y = x then 1 else 0 := by
  show ((((BitVec.ofBool (x == y)).setWidth 32).toInt : ℝ) : EReal) = _
  by_cases hxy : y = x
  · subst hxy
    rw [if_pos rfl, beq_self_eq_true]
    have t : ((BitVec.ofBool true).setWidth 32).toInt = 1 := by decide
    rw [t, Int.cast_one, EReal.coe_one]
  · have hb : (x == y) = false := beq_eq_false_iff_ne.mpr (fun e => hxy e.symm)
    rw [if_neg hxy, hb]
    have t : ((BitVec.ofBool false).setWidth 32).toInt = 0 := by decide
    rw [t, Int.cast_zero, EReal.coe_zero]

/-- A factor times two 0/1 indicators is the factor when both conditions hold and zero otherwise: this uses
    only x · 1 = x and x · 0 = 0, which hold for every extended real. -/
theorem mul_two_indicators (x : EReal) (P Q : Prop) [Decidable P] [Decidable Q] :
    (x * (if P then 1 else 0)) * (if Q then 1 else 0) = if P ∧ Q then x else 0 := by
  by_cases hP : P <;> by_cases hQ : Q <;> simp [hP, hQ]

/-- The one-hot matrix of a column of words against the column index: entry (s, c) is 1 when the word of row s
    is c and 0 otherwise. -/
theorem onehot_apply (v : IVec S2048x1 32) (hi : S2048x256.Iotas .tc 32 [1]) (hb : S2048x1.Broadcasts S2048x256)
    (hn : 1 < 32) (hbits : FTy.bits .bf16 < FTy.bits .f32) (s : Fin 2048) (c : Fin 256) :
    (truncf .bf16 (sitofp (F := Ideal) .f32 (extui 32 (cmpi .eq (iota .tc S2048x256 32 [1] hi) (broadcastTo S2048x256 v hb)) hn)) hbits) (ix2 s c)
      = if v (ix2 s (0 : Fin 1)) = BitVec.ofNat 32 c.val then 1 else 0 := by
  rw [truncf_apply, sitofp_apply, extui_apply]
  show FloatOps.sitofp (F := Ideal) .f32
      ((IntOp.cmpi .eq (iota .tc S2048x256 32 [1] hi (ix2 s c)) (broadcastTo S2048x256 v hb (ix2 s c))).setWidth 32) = _
  rw [iota_single_apply, broadcastTo_a1_ab_apply]
  exact indicator_val _ _

end Scatter

/-! ## The scatter's payload at an entry -/

theorem pay1_apply (v8 : FVec Ideal S2048x1 .f32) (v14 v16 : IVec S2048x1 32) (v35 : IVec S2048x1 1) (cst : Ideal .f32)
    (v53 : Vec Ideal S1x256x256 .f32) (h l : Fin 256) :
    k0_pay1 (F := Ideal) v8 v14 v16 (iota .tc S2048x256 32 [1] Cert.KernelIdeal.Facts₀.iota_S2048x256_d1_w32) v35 cst v53 (ix3 (0 : Fin 1) h l)
      = v53 (ix3 (0 : Fin 1) h l)
        + ∑ s : Fin 2048,
            if v14 (ix2 s (0 : Fin 1)) = BitVec.ofNat 32 h.val ∧ v16 (ix2 s (0 : Fin 1)) = BitVec.ofNat 32 l.val then
              Scalar.select (v35 (ix2 s (0 : Fin 1))) (v8 (ix2 s (0 : Fin 1))) cst
            else 0 := by
  unfold k0_pay1
  refine (shapeCast_ab_1ab_apply _ _ (0 : Fin 1) h l).trans ?_
  rw [addf_apply]
  refine congrArg₂ (· + ·) (shapeCast_1ab_ab_apply v53 _ h l) ?_
  refine (Scatter.scatter_matmul_apply _ _ h l).trans ?_
  refine Finset.sum_congr rfl fun s _ => ?_
  rw [mulf_apply, Scatter.onehot_apply, Scatter.onehot_apply, Scatter.broadcastTo_a1_ab_apply, truncf_apply, select_apply, broadcast_apply]
  exact Scatter.mul_two_indicators _ _ _

end Cert.KernelIdeal.Body

end
-- ==== Proof.KerHost.lean ====
/-
  What the region finds in its four input arrays, block by block, in terms of the program's arguments.

  The host lines before the region slice the two index columns, multiply the weights by their factors, pad each of
  the three lists with 768 zeros and view it as [2, 10000384, 1]; point t of the grid (core t / 4883, chunk
  t % 4883) stages rows 2048·(t % 4883) … of core t / 4883, which are the padded list's entries 2048·t + s. The
  spike table is the input row compared with zero, as the numbers 0 and 1, padded with zeros to 32768 and viewed
  as [128, 256]: entry (k, l) is unit 256·k + l.
-/
import proofs.«430677_j34170759807367_3_alg».proof.Proof.Gen.KernelIdeal.Frame.Runs
import proofs.«430677_j34170759807367_3_alg».proof.Proof.Spec
import proofs.«430677_j34170759807367_3_alg».proof.Proof.LibScatter
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Idealize.ShloMosaic Idealize.ShloMosaic.ValueIdx Idealize.SL.Sem Cert.KernelIdeal Cert.KernelIdeal.Gen

variable (m : (ℓ : Loc nD τ sig) → Buf (Elt Ideal) ℓ)

/-! ## The grid: point t is core t / 4883, chunk t % 4883 -/

theorem t_lt (t : Fin cfg0.N) : t.val < 9766 := lt_of_lt_of_eq t.isLt N_0

theorem stride0 : grid0.stride 0 = 4883 := by decide
theorem stride1 : grid0.stride 1 = 1 := by decide

theorem core_lt (t : Fin cfg0.N) : t.val / 4883 < 2 := by have := t_lt t; omega
theorem row_lt (t : Fin cfg0.N) (s : Fin 2048) : 2048 * (t.val % 4883) + s.val < 10000384 := by
  have := s.isLt; omega

theorem idx0 (t : Fin cfg0.N) :
    win0_0.index t 0 = t.val / 4883 ∧ win0_0.index t 1 = t.val % 4883 ∧ win0_0.index t 2 = 0 := by
  have hN := t_lt t
  refine ⟨?_, ?_, ?_⟩
  · show (BitVec.ofNat 32 (t.val / grid0.stride 0 % 2)).toNat = _
    rw [stride0, BitVec.toNat_ofNat]
    omega
  · show (BitVec.ofNat 32 (t.val / grid0.stride 1 % 4883)).toNat = _
    rw [stride1, BitVec.toNat_ofNat]
    omega
  · rfl

theorem idx1 (t : Fin cfg0.N) :
    win0_1.index t 0 = t.val / 4883 ∧ win0_1.index t 1 = t.val % 4883 ∧ win0_1.index t 2 = 0 := by
  have hN := t_lt t
  refine ⟨?_, ?_, ?_⟩
  · show (BitVec.ofNat 32 (t.val / grid0.stride 0 % 2)).toNat = _
    rw [stride0, BitVec.toNat_ofNat]
    omega
  · show (BitVec.ofNat 32 (t.val / grid0.stride 1 % 4883)).toNat = _
    rw [stride1, BitVec.toNat_ofNat]
    omega
  · rfl

theorem idx2 (t : Fin cfg0.N) :
    win0_2.index t 0 = t.val / 4883 ∧ win0_2.index t 1 = t.val % 4883 ∧ win0_2.index t 2 = 0 := by
  have hN := t_lt t
  refine ⟨?_, ?_, ?_⟩
  · show (BitVec.ofNat 32 (t.val / grid0.stride 0 % 2)).toNat = _
    rw [stride0, BitVec.toNat_ofNat]
    omega
  · show (BitVec.ofNat 32 (t.val / grid0.stride 1 % 4883)).toNat = _
    rw [stride1, BitVec.toNat_ofNat]
    omega
  · rfl

/-! ## A block is the array at a position -/

/-- Window 0's block at point t, read off ANY array of its shape: row s of the block is row 2048·(t % 4883) + s of
    core t / 4883. -/
theorem read_blk0 (A : IVec S2x10000384x1 32) (t : Fin cfg0.N) (s : Fin 2048) :
    ((cfg0.win 0).blk t).view.read (Elt Ideal) A (ix3 (0 : Fin 1) s (0 : Fin 1))
      = A (ix3 (⟨t.val / 4883, core_lt t⟩ : Fin 2) (⟨2048 * (t.val % 4883) + s.val, row_lt t s⟩ : Fin 10000384) (0 : Fin 1)) := by
  obtain ⟨h0, h1, h2⟩ := idx0 t
  rw [View.read_apply]
  show A _ = A _
  refine congrArg A ?_
  funext a
  apply Fin.ext
  match a with
  | ⟨0, _⟩ => show win0_0.index t 0 * 1 + 1 * 0 = t.val / 4883; rw [h0]; omega
  | ⟨1, _⟩ => show win0_0.index t 1 * 2048 + 1 * s.val = 2048 * (t.val % 4883) + s.val; rw [h1]; omega
  | ⟨2, _⟩ => show win0_0.index t 2 * 1 + 1 * 0 = 0; rw [h2]

/-- Window 1's block at point t, read off ANY array of its shape: row s of the block is row 2048·(t % 4883) + s of
    core t / 4883. -/
theorem read_blk1 (A : IVec S2x10000384x1 32) (t : Fin cfg0.N) (s : Fin 2048) :
    ((cfg0.win 1).blk t).view.read (Elt Ideal) A (ix3 (0 : Fin 1) s (0 : Fin 1))
      = A (ix3 (⟨t.val / 4883, core_lt t⟩ : Fin 2) (⟨2048 * (t.val % 4883) + s.val, row_lt t s⟩ : Fin 10000384) (0 : Fin 1)) := by
  obtain ⟨h0, h1, h2⟩ := idx1 t
  rw [View.read_apply]
  show A _ = A _
  refine congrArg A ?_
  funext a
  apply Fin.ext
  match a with
  | ⟨0, _⟩ => show win0_1.index t 0 * 1 + 1 * 0 = t.val / 4883; rw [h0]; omega
  | ⟨1, _⟩ => show win0_1.index t 1 * 2048 + 1 * s.val = 2048 * (t.val % 4883) + s.val; rw [h1]; omega
  | ⟨2, _⟩ => show win0_1.index t 2 * 1 + 1 * 0 = 0; rw [h2]

/-- Window 2's block at point t, read off ANY array of its shape: row s of the block is row 2048·(t % 4883) + s of
    core t / 4883. -/
theorem read_blk2 (A : FVec Ideal S2x10000384x1 .f32) (t : Fin cfg0.N) (s : Fin 2048) :
    ((cfg0.win 2).blk t).view.read (Elt Ideal) A (ix3 (0 : Fin 1) s (0 : Fin 1))
      = A (ix3 (⟨t.val / 4883, core_lt t⟩ : Fin 2) (⟨2048 * (t.val % 4883) + s.val, row_lt t s⟩ : Fin 10000384) (0 : Fin 1)) := by
  obtain ⟨h0, h1, h2⟩ := idx2 t
  rw [View.read_apply]
  show A _ = A _
  refine congrArg A ?_
  funext a
  apply Fin.ext
  match a with
  | ⟨0, _⟩ => show win0_2.index t 0 * 1 + 1 * 0 = t.val / 4883; rw [h0]; omega
  | ⟨1, _⟩ => show win0_2.index t 1 * 2048 + 1 * s.val = 2048 * (t.val % 4883) + s.val; rw [h1]; omega
  | ⟨2, _⟩ => show win0_2.index t 2 * 1 + 1 * 0 = 0; rw [h2]

/-- Window 3's block is the whole table. -/
theorem read_blk3 (A : FVec Ideal S128x256 .bf16) (t : Fin cfg0.N) (k : Fin 128) (l : Fin 256) :
    ((cfg0.win 3).blk t).view.read (Elt Ideal) A (ix2 k l) = A (ix2 k l) := by
  have h0 : win0_3.index t 0 = 0 := rfl
  have h1 : win0_3.index t 1 = 0 := rfl
  rw [View.read_apply]
  show A _ = A _
  refine congrArg A ?_
  funext a
  apply Fin.ext
  match a with
  | ⟨0, _⟩ => show win0_3.index t 0 * 128 + 1 * k.val = k.val; rw [h0]; omega
  | ⟨1, _⟩ => show win0_3.index t 1 * 256 + 1 * l.val = l.val; rw [h1]; omega

/-! ## The padded lists read at a position -/

/-- A padded list viewed as [2, 10000384, 1], read at (a, r, 0): entry 10000384·a + r of the list, the padding
    scalar past its end. -/
theorem padcast_apply {α : Type} (x : S20000000.Idx → α) (v : S_.Idx → α)
    (hp : S20000000.Pads ![0] ![768] ![0] S20000768) (hu : 0 < S_.numel)
    (hc : S20000768.ShapeCasts S2x10000384x1) (a : Fin 2) (r : Fin 10000384) (n : ℕ)
    (hn : n = 10000384 * a.val + r.val) :
    shapeCast S2x10000384x1 (pad S20000768 ![0] ![768] ![0] x v hp hu) hc (ix3 a r (0 : Fin 1))
      = if h : n < 20000000 then x (ix1 (⟨n, h⟩ : Fin 20000000)) else v ix0 := by
  have hlt : n < 20000768 := by have := a.isLt; have := r.isLt; omega
  refine (shapeCast_apply _ hc _ (ix1 (⟨n, hlt⟩ : Fin 20000768)) ?_).trans ?_
  · rw [Shape.rowMajor_val_one, Shape.rowMajor_val_three]
    show n = (a.val * 10000384 + r.val) * 1 + 0
    omega
  · exact Cert.LibScatter.pad_vec_apply ![768] x v hp hu ⟨n, hlt⟩

/-- Column col of a [20000000, 2] array as a list, read at n. -/
theorem col_apply {α : Type} (x : S20000000x2.Idx → α) (col : Fin 2) (off : Fin 2 → ℕ) (hoff : off = ![0, col.val])
    (hs : S20000000x2.Slices off S20000000x1) (hc : S20000000x1.ShapeCasts S20000000) (n : Fin 20000000) :
    shapeCast S20000000 (extractStridedSlice S20000000x1 off x hs) hc (ix1 n) = x (ix2 n col) := by
  subst hoff
  refine (shapeCast_apply _ hc _ (ix2 n (0 : Fin 1)) ?_).trans ?_
  · rw [Shape.rowMajor_val_one, Shape.rowMajor_val_two]
    show n.val * 1 + 0 = n.val
    omega
  · refine extractStridedSlice_apply _ x hs _ (ix2 n col) fun a => ?_
    match a with
    | ⟨0, _⟩ => show n.val = 0 + n.val; omega
    | ⟨1, _⟩ => show col.val = col.val + 0; omega

/-- A padded table viewed as [128, 256], read at (k, l): entry 256·k + l, the padding scalar past its end. -/
theorem tab_apply {α : Type} (x : S17400.Idx → α) (v : S_.Idx → α)
    (hp : S17400.Pads ![0] ![15368] ![0] S32768) (hu : 0 < S_.numel)
    (hc : S32768.ShapeCasts S128x256) (k : Fin 128) (l : Fin 256) :
    shapeCast S128x256 (pad S32768 ![0] ![15368] ![0] x v hp hu) hc (ix2 k l)
      = if h : 256 * k.val + l.val < 17400 then x (ix1 (⟨256 * k.val + l.val, h⟩ : Fin 17400)) else v ix0 := by
  have hlt : 256 * k.val + l.val < 32768 := by have := k.isLt; have := l.isLt; omega
  refine (shapeCast_apply _ hc _ (ix1 (⟨256 * k.val + l.val, hlt⟩ : Fin 32768)) ?_).trans ?_
  · rw [Shape.rowMajor_val_one, Shape.rowMajor_val_two]
    show 256 * k.val + l.val = k.val * 256 + l.val
    omega
  · exact Cert.LibScatter.pad_vec_apply ![15368] x v hp hu ⟨256 * k.val + l.val, hlt⟩

/-! ## The four arrays as the host lines leave them -/

theorem V8_eq (c : Dev nD) :
    (V m c main_v8 : S2x10000384x1.Idx → BitVec 32)
      = shapeCast S2x10000384x1
          (pad S20000768 ![0] ![768] ![0]
            (shapeCast S20000000 (extractStridedSlice S20000000x1 ![0, 1] (m ((c.tc : Thread nD τ).loc main_arg1)) Gen.slices_S20000000x2_S20000000x1_0_1) Gen.shapeCasts_S20000000x1_S20000000)
            (id (constantI S_ 32 0#32)) Gen.pads_S20000000_S20000768_07680 Gen.h_S_)
          Gen.shapeCasts_S20000768_S2x10000384x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [StableHlo.TRef.ofBuf, StableHlo.TRef.toBuf, cast_eq]
  rfl

theorem V9_eq (c : Dev nD) :
    (V m c main_v9 : S2x10000384x1.Idx → BitVec 32)
      = shapeCast S2x10000384x1
          (pad S20000768 ![0] ![768] ![0]
            (shapeCast S20000000 (extractStridedSlice S20000000x1 ![0, 0] (m ((c.tc : Thread nD τ).loc main_arg1)) Gen.slices_S20000000x2_S20000000x1_0_0) Gen.shapeCasts_S20000000x1_S20000000)
            (id (constantI S_ 32 0#32)) Gen.pads_S20000000_S20000768_07680 Gen.h_S_)
          Gen.shapeCasts_S20000768_S2x10000384x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [StableHlo.TRef.ofBuf, StableHlo.TRef.toBuf, cast_eq]
  rfl

theorem V10_eq (c : Dev nD) :
    (V m c main_v10 : S2x10000384x1.Idx → EReal)
      = shapeCast S2x10000384x1
          (pad S20000768 ![0] ![768] ![0]
            (mulf (F := Ideal) (s := S20000000) (φ := .f32) (m ((c.tc : Thread nD τ).loc main_arg2)) (m ((c.tc : Thread nD τ).loc main_arg3)))
            (id (constant (F := Ideal) S_ .f32 0x00000000#32)) Gen.pads_S20000000_S20000768_07680 Gen.h_S_)
          Gen.shapeCasts_S20000768_S2x10000384x1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [StableHlo.TRef.ofBuf, StableHlo.TRef.toBuf, cast_eq]
  rfl

theorem V16_eq (c : Dev nD) :
    (V m c main_v16 : S128x256.Idx → EReal)
      = shapeCast S128x256
          (pad S32768 ![0] ![15368] ![0]
            (uitofp (F := Ideal) .bf16 (cmpf (F := Ideal) (s := S17400) (φ := .f32) .ogt
              (shapeCast S17400 (m ((c.tc : Thread nD τ).loc main_arg0)) Gen.shapeCasts_S1x17400_S17400)
              (broadcastInDim S17400 ![] Gen.bcast_S_S17400 (constant (F := Ideal) S_ .f32 0x00000000#32))))
            (sitofp (F := Ideal) .bf16 (constantI S_ 32 0#32)) Gen.pads_S17400_S32768_0153680 Gen.h_S_)
          Gen.shapeCasts_S32768_S128x256 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [StableHlo.TRef.ofBuf, StableHlo.TRef.toBuf, cast_eq]
  rfl

/-! ## The blocks -/

theorem iblk0_apply (c : Dev nD) (t : Fin cfg0.N) (s : Fin 2048) :
    (iblk m c 0 t : Vec Ideal S1x2048x1 .i32) (ix3 (0 : Fin 1) s (0 : Fin 1))
      = Cert.Syn.prePad (m ((c.tc : Thread nD τ).loc main_arg1)) (2048 * t.val + s.val) := by
  have hn : 2048 * t.val + s.val = 10000384 * (t.val / 4883) + (2048 * (t.val % 4883) + s.val) := by omega
  refine (read_blk0 (V m c main_v8) t s).trans ?_
  rw [V8_eq]
  refine (padcast_apply _ _ _ _ _ (⟨t.val / 4883, core_lt t⟩ : Fin 2) (⟨2048 * (t.val % 4883) + s.val, row_lt t s⟩ : Fin 10000384) _ hn).trans ?_
  unfold Cert.Syn.prePad
  by_cases h : 2048 * t.val + s.val < 20000000
  · rw [dif_pos h, dif_pos h]
    exact col_apply _ (1 : Fin 2) _ rfl _ _ ⟨_, h⟩
  · rw [dif_neg h, dif_neg h]
    rfl

theorem iblk1_apply (c : Dev nD) (t : Fin cfg0.N) (s : Fin 2048) :
    (iblk m c 1 t : Vec Ideal S1x2048x1 .i32) (ix3 (0 : Fin 1) s (0 : Fin 1))
      = Cert.Syn.postPad (m ((c.tc : Thread nD τ).loc main_arg1)) (2048 * t.val + s.val) := by
  have hn : 2048 * t.val + s.val = 10000384 * (t.val / 4883) + (2048 * (t.val % 4883) + s.val) := by omega
  refine (read_blk1 (V m c main_v9) t s).trans ?_
  rw [V9_eq]
  refine (padcast_apply _ _ _ _ _ (⟨t.val / 4883, core_lt t⟩ : Fin 2) (⟨2048 * (t.val % 4883) + s.val, row_lt t s⟩ : Fin 10000384) _ hn).trans ?_
  unfold Cert.Syn.postPad
  by_cases h : 2048 * t.val + s.val < 20000000
  · rw [dif_pos h, dif_pos h]
    exact col_apply _ (0 : Fin 2) _ rfl _ _ ⟨_, h⟩
  · rw [dif_neg h, dif_neg h]
    rfl

theorem iblk2_apply (c : Dev nD) (t : Fin cfg0.N) (s : Fin 2048) :
    (iblk m c 2 t : Vec Ideal S1x2048x1 .f32) (ix3 (0 : Fin 1) s (0 : Fin 1))
      = Cert.Syn.wfPad (m ((c.tc : Thread nD τ).loc main_arg2)) (m ((c.tc : Thread nD τ).loc main_arg3)) (2048 * t.val + s.val) := by
  have hn : 2048 * t.val + s.val = 10000384 * (t.val / 4883) + (2048 * (t.val % 4883) + s.val) := by omega
  refine (read_blk2 (V m c main_v10) t s).trans ?_
  rw [V10_eq]
  refine (padcast_apply _ _ _ _ _ (⟨t.val / 4883, core_lt t⟩ : Fin 2) (⟨2048 * (t.val % 4883) + s.val, row_lt t s⟩ : Fin 10000384) _ hn).trans ?_
  unfold Cert.Syn.wfPad
  by_cases h : 2048 * t.val + s.val < 20000000
  · rw [dif_pos h, dif_pos h]
    rfl
  · rw [dif_neg h, dif_neg h]
    rfl

theorem iblk3_apply (c : Dev nD) (t : Fin cfg0.N) (k : Fin 128) (l : Fin 256) :
    (iblk m c 3 t : Vec Ideal S128x256 .bf16) (ix2 k l)
      = Cert.Syn.actPad (m ((c.tc : Thread nD τ).loc main_arg0)) (256 * k.val + l.val) := by
  refine (read_blk3 (V m c main_v16) t k l).trans ?_
  rw [V16_eq]
  refine (tab_apply _ _ _ _ _ k l).trans ?_
  unfold Cert.Syn.actPad
  by_cases h : 256 * k.val + l.val < 17400
  · rw [dif_pos h, dif_pos h]
    refine congrArg (FloatOps.uitofp (F := Ideal) .bf16) ?_
    refine congrArg₂ (FloatOps.cmpf (F := Ideal) (φ := .f32) .ogt) ?_ ?_
    · exact shapeCast_1a_a_apply _ _ _
    · rfl
  · rw [dif_neg h, dif_neg h]
    rfl

end Cert.KernelIdeal.Host

end
-- ==== Proof.Arith.lean ====
/-
  The arithmetic between the kernel's way of summing and the specification's.

  hilo_iff: a 32-bit word p is the neuron number 256·h + l (read signed) exactly when its arithmetic shift by 8 is
  h and its low byte is l, for h, l below 256.
  sum_chunks: summing over 2 cores × 4883 chunks × 2048 synapses is summing over the 20 000 768 padded synapses.
  cmp_tab_eq_act: looking a presynaptic word up in the 128 × 256 spike table (row = the word shifted by 8, column =
  its low byte; a row past the table reads 0) and asking "more than one half" is asking whether that unit spiked.
  sum_term_eq_G: the padded sum of the kernel's terms for the byte pair (h, l) is the current into neuron 256·h + l:
  the 768 padding synapses carry weight zero.
-/
import proofs.«430677_j34170759807367_3_alg».proof.Proof.Spec
import proofs.«430677_j34170759807367_3_alg».proof.Proof.LibScatter

noncomputable section

open scoped BigOperators

namespace Cert.Syn

open Idealize.ShloMosaic Idealize.ShloMosaic.ValueIdx

variable (xin : FVec Ideal SIn .f32) (ind : IVec SInd 32) (w f : FVec Ideal SSyn .f32)

namespace Arith

/-- The arithmetic shift of a 32-bit word by 8, read signed, is the word read signed divided by 256 (rounded down). -/
theorem shrsi8_toInt (p : BitVec 32) : (IntOp.shrsi .vector p 8#32).toInt = p.toInt / 256 := by
  unfold IntOp.shrsi
  rw [if_pos (by decide), BitVec.toInt_sshiftRight', Int.shiftRight_eq_div_pow]
  rfl

/-- The low byte of a word, read unsigned, is the word read unsigned modulo 256. -/
theorem andi255_toNat (p : BitVec 32) : (IntOp.andi p 255#32).toNat = p.toNat % 256 := by
  unfold IntOp.andi
  rw [BitVec.toNat_and]
  exact Nat.and_two_pow_sub_one_eq_mod p.toNat 8

/-- A number below 256 as a 32-bit word reads back as itself, signed. -/
theorem ofNat_toInt_small (h : ℕ) (hh : h < 256) : (BitVec.ofNat 32 h).toInt = (h : ℤ) := by
  rw [BitVec.toInt_eq_toNat_of_lt (by rw [BitVec.toNat_ofNat]; omega), BitVec.toNat_ofNat]
  congr 1
  omega

/-- A sum over T blocks of K consecutive numbers is the sum over the first K·T numbers. -/
theorem sum_range_mul {β : Type*} [AddCommMonoid β] (K T : ℕ) (g : ℕ → β) :
    ∑ t ∈ Finset.range T, ∑ s ∈ Finset.range K, g (K * t + s) = ∑ n ∈ Finset.range (K * T), g n := by
  induction T with
  | zero => simp
  | succ T ih =>
    rw [Finset.sum_range_succ, ih, Nat.mul_succ, Finset.sum_range_add]

/-- The pattern 0x3F000000 is one half. -/
theorem ofBits_half : Ideal.ofBits .f32 0x3F000000#32 = ((1 / 2 : ℝ) : EReal) := by
  simp [Ideal.ofBits, Ideal.ieee, -EReal.coe_mul]; norm_num

/-- The all-zero pattern is zero. -/
theorem ofBits_zero : Ideal.ofBits .f32 0x00000000#32 = 0 := by
  simp [Ideal.ofBits, Ideal.ieee]

/-- A one-bit word is 0 or 1. -/
theorem bit_cases (b : BitVec 1) : b = 0#1 ∨ b = 1#1 := by
  have hb := b.isLt
  rcases (show b.toNat = 0 ∨ b.toNat = 1 by omega) with h | h
  · exact Or.inl (BitVec.eq_of_toNat_eq h)
  · exact Or.inr (BitVec.eq_of_toNat_eq h)

/-- Zero is not more than one half. -/
theorem cmp_half_zero : Ideal.cmp .ogt (0 : EReal) (Ideal.ofBits .f32 0x3F000000#32) = 0#1 := by
  rw [ofBits_half]
  have : ¬ (((1 / 2 : ℝ) : EReal) < 0) := by
    rw [← EReal.coe_zero, EReal.coe_lt_coe_iff]; norm_num
  show BitVec.ofBool (decide (((1 / 2 : ℝ) : EReal) < 0)) = 0#1
  rw [decide_eq_false this]
  rfl

/-- A bit read as the number 0 or 1 is more than one half exactly when it is 1. -/
theorem cmp_half_bit (b : BitVec 1) :
    Ideal.cmp .ogt (((b.toNat : ℝ)) : EReal) (Ideal.ofBits .f32 0x3F000000#32) = b := by
  rw [ofBits_half]
  rcases bit_cases b with rfl | rfl
  · have : ¬ (((1 / 2 : ℝ) : EReal) < (((0#1 : BitVec 1).toNat : ℝ) : EReal)) := by
      rw [EReal.coe_lt_coe_iff]; norm_num
    show BitVec.ofBool (decide (((1 / 2 : ℝ) : EReal) < (((0#1 : BitVec 1).toNat : ℝ) : EReal))) = 0#1
    rw [decide_eq_false this]
    rfl
  · have : (((1 / 2 : ℝ) : EReal) < (((1#1 : BitVec 1).toNat : ℝ) : EReal)) := by
      rw [EReal.coe_lt_coe_iff]; norm_num
    show BitVec.ofBool (decide (((1 / 2 : ℝ) : EReal) < (((1#1 : BitVec 1).toNat : ℝ) : EReal))) = 1#1
    rw [decide_eq_true this]
    rfl

/-- The shift by 8, read unsigned, is below 128 exactly for words below 32768 read unsigned (a negative word shifts to a negative one, at least 2³¹ unsigned); for those the two bytes recompose the word. -/
theorem shrsi8_toNat_lt (p : BitVec 32) :
    ((IntOp.shrsi .vector p 8#32).toNat < 128 ↔ p.toNat < 32768) ∧
    (p.toNat < 32768 → 256 * (IntOp.shrsi .vector p 8#32).toNat + (IntOp.andi p 255#32).toNat = p.toNat) := by
  have hA := shrsi8_toInt p
  have hB := andi255_toNat p
  have hs := (IntOp.shrsi .vector p 8#32).isLt
  have hp := p.isLt
  have hcs := BitVec.toInt_eq_toNat_cond (IntOp.shrsi .vector p 8#32)
  have hcp := BitVec.toInt_eq_toNat_cond p
  split_ifs at hcs hcp <;> constructor <;> omega

/-- Past the last unit the spike table reads zero. -/
theorem actPad_of_ge (k : ℕ) (hk : ¬ k < 17400) : actPad xin k = 0 := by
  unfold actPad
  rw [dif_neg hk]
  show (((0#32 : BitVec 32).toInt : ℝ) : EReal) = 0
  simp

/-- A choice between equal values is that value. -/
theorem select_same (c : BitVec 1) (z : EReal) : Scalar.select c z z = z := by
  unfold Scalar.select
  split_ifs <;> rfl

end Arith

open Arith

/-- A word is 256·h + l read signed exactly when its shift by 8 is h and its low byte is l (h, l below 256). -/
theorem hilo_iff (p : BitVec 32) (h l : ℕ) (hh : h < 256) (hl : l < 256) :
    (IntOp.shrsi .vector p 8#32 = BitVec.ofNat 32 h ∧ IntOp.andi p 255#32 = BitVec.ofNat 32 l)
      ↔ p.toInt = ((256 * h + l : ℕ) : ℤ) := by
  have hA := shrsi8_toInt p
  have hB := andi255_toNat p
  have hC := ofNat_toInt_small h hh
  have hD : (BitVec.ofNat 32 l).toNat = l := by rw [BitVec.toNat_ofNat]; omega
  have hp := p.isLt
  have hcond := BitVec.toInt_eq_toNat_cond p
  constructor
  · rintro ⟨e1, e2⟩
    have e1' : p.toInt / 256 = (h : ℤ) := by rw [← hA, e1, hC]
    have e2' : p.toNat % 256 = l := by rw [← hB, e2, hD]
    split_ifs at hcond with hc <;> omega
  · intro e
    constructor
    · apply BitVec.eq_of_toInt_eq
      rw [hA, hC, e]
      omega
    · apply BitVec.eq_of_toNat_eq
      rw [hB, hD]
      split_ifs at hcond with hc <;> omega

/-- 2 cores × 4883 chunks × 2048 synapses enumerate the 20 000 768 padded synapses in order. -/
theorem sum_chunks {β : Type*} [AddCommMonoid β] (g : ℕ → β) :
    ∑ q : Fin 2, ∑ i ∈ Finset.range 4883, ∑ s : Fin 2048, g (2048 * (4883 * q.val + i) + s.val)
      = ∑ n ∈ Finset.range 20000768, g n := by
  have h1 : ∀ t : ℕ, ∑ s : Fin 2048, g (2048 * t + s.val) = ∑ s ∈ Finset.range 2048, g (2048 * t + s) :=
    fun t => Fin.sum_univ_eq_sum_range (fun s => g (2048 * t + s)) 2048
  simp only [h1]
  rw [Fin.sum_univ_eq_sum_range
    (fun q => ∑ i ∈ Finset.range 4883, ∑ s ∈ Finset.range 2048, g (2048 * (4883 * q + i) + s)) 2]
  rw [sum_range_mul 4883 2 (fun t => ∑ s ∈ Finset.range 2048, g (2048 * t + s))]
  rw [sum_range_mul 2048 (4883 * 2) g]

/-- Looking the word up in the 128 × 256 table and asking "more than one half" is asking whether the unit spiked. -/
theorem cmp_tab_eq_act (p : BitVec 32) :
    Ideal.cmp .ogt
        (if (IntOp.shrsi .vector p 8#32).toNat < 128 then
          actPad xin (256 * (IntOp.shrsi .vector p 8#32).toNat + (IntOp.andi p 255#32).toNat) else 0)
        (Ideal.ofBits .f32 0x3F000000#32)
      = act xin p := by
  obtain ⟨h1, h2⟩ := shrsi8_toNat_lt p
  unfold act
  by_cases hp : p.toNat < 17400
  · have hp' : p.toNat < 32768 := by omega
    rw [if_pos (h1.mpr hp'), h2 hp', dif_pos hp]
    unfold actPad
    rw [dif_pos hp]
    exact cmp_half_bit _
  · rw [dif_neg hp]
    by_cases hq : p.toNat < 32768
    · rw [if_pos (h1.mpr hq), h2 hq, actPad_of_ge xin _ hp]
      exact cmp_half_zero
    · rw [if_neg (fun h => hq (h1.mp h))]
      exact cmp_half_zero

/-- The padded sum of the terms for the byte pair (h, l) is the current into neuron 256·h + l: the 768 padding synapses contribute zero. -/
theorem sum_term_eq_G (h l : ℕ) (hh : h < 256) (hl : l < 256) :
    ∑ n ∈ Finset.range 20000768, term xin ind w f h l n = G xin ind w f (256 * h + l) := by
  rw [← Fin.sum_univ_eq_sum_range (fun n => term xin ind w f h l n) 20000768]
  unfold G
  rw [← Cert.LibScatter.sum_fin_padded (N := 20000000) (T := 20000768) (by norm_num)
    (fun n : Fin 20000000 =>
      if (ind (ix2 n (0 : Fin 2))).toInt = ((256 * h + l : ℕ) : ℤ) then syn xin ind w f n else 0)]
  refine Finset.sum_congr rfl fun k _ => ?_
  by_cases hk : k.val < 20000000
  · rw [dif_pos hk]
    unfold term postPad prePad wfPad syn
    simp only [dif_pos hk]
    rw [if_congr (hilo_iff _ h l hh hl) rfl rfl, ofBits_zero]
  · rw [dif_neg hk]
    unfold term wfPad
    rw [dif_neg hk, select_same, ofBits_zero]
    exact ite_self _

end Cert.Syn

end
-- ==== Proof.KerAcc.lean ====
/-
  The output block after each grid point, as a running sum.

  One step of the body at point t adds to every entry (h, l) of the block the terms of chunk t: the selected weights of
  the padded synapses 2048·t … 2048·t + 2047 whose postsynaptic word has high part h and low byte l (step_apply: the
  scatter payload read at an entry, the gather payload looked up in the spike table, the input blocks read as the
  padded lists). The block is reset to zero at a core's first chunk (points 0 and 4883) and carried from the point
  before elsewhere, so after the last chunk of core q it holds zero plus the sum over the core's 4883 chunks of their
  terms (outs_last: the fold of the steps unrolled at an entry).
-/
import proofs.«430677_j34170759807367_3_alg».proof.Proof.KerPieces
import proofs.«430677_j34170759807367_3_alg».proof.Proof.KerGather
import proofs.«430677_j34170759807367_3_alg».proof.Proof.KerScatter
import proofs.«430677_j34170759807367_3_alg».proof.Proof.KerHost
import proofs.«430677_j34170759807367_3_alg».proof.Proof.Arith
import Idealize.ShloMosaic.Lib.Pipeline.Value

noncomputable section

open scoped BigOperators

namespace Cert.KernelIdeal.Acc

open Idealize.ShloMosaic Idealize.ShloMosaic.ValueIdx Idealize.ShloMosaic.TcCoe Idealize.SL.Sem
open Cert.KernelIdeal Cert.KernelIdeal.Gen Cert.KernelIdeal.Pieces

variable (m : (ℓ : Loc nD τ sig) → Buf (Elt Ideal) ℓ)

/-- The four argument arrays on core c. -/
abbrev A0 (c : Dev nD) : FVec Ideal Cert.Syn.SIn .f32 := m ((c.tc : Thread nD τ).loc main_arg0)
abbrev A1 (c : Dev nD) : IVec Cert.Syn.SInd 32 := m ((c.tc : Thread nD τ).loc main_arg1)
abbrev A2 (c : Dev nD) : FVec Ideal Cert.Syn.SSyn .f32 := m ((c.tc : Thread nD τ).loc main_arg2)
abbrev A3 (c : Dev nD) : FVec Ideal Cert.Syn.SSyn .f32 := m ((c.tc : Thread nD τ).loc main_arg3)

/-- The input blocks at a point, at their literal types. -/
abbrev blk0 (c : Dev nD) (t : Fin cfg0.N) : Vec Ideal S1x2048x1 .i32 := iblk m c 0 t
abbrev blk1 (c : Dev nD) (t : Fin cfg0.N) : Vec Ideal S1x2048x1 .i32 := iblk m c 1 t
abbrev blk2 (c : Dev nD) (t : Fin cfg0.N) : Vec Ideal S1x2048x1 .f32 := iblk m c 2 t
abbrev blk3 (c : Dev nD) (t : Fin cfg0.N) : Vec Ideal S128x256 .bf16 := iblk m c 3 t

/-- Chunk n's addend at a block entry: its 2048 padded synapses' terms for that entry's byte pair. -/
def addend (c : Dev nD) (n : ℕ) (i : S1x256x256.Idx) : EReal :=
  ∑ s : Fin 2048, Cert.Syn.term (A0 m c) (A1 m c) (A2 m c) (A3 m c) (i 1).val (i 2).val (2048 * n + s.val)

/-- One step of the body at point t, read at entry (h, l): the entry before plus chunk t's terms. -/
theorem step_apply_ix (c : Dev nD) (t : Fin cfg0.N) (acc : Vec Ideal S1x256x256 .f32) (h l : Fin 256) :
    step (F := Ideal) (blk0 m c t) (blk1 m c t) (blk2 m c t) (blk3 m c t) acc (ix3 (0 : Fin 1) h l)
      = acc (ix3 (0 : Fin 1) h l)
        + ∑ s : Fin 2048, Cert.Syn.term (A0 m c) (A1 m c) (A2 m c) (A3 m c) h.val l.val (2048 * t.val + s.val) := by
  refine (Cert.KernelIdeal.Body.pay1_apply (k0_pay4 (F := Ideal) (blk2 m c t)) (k0_pay5 (F := Ideal) (blk1 m c t))
    (k0_pay6 (F := Ideal) (blk1 m c t)) (k0_pay7 (F := Ideal) (blk0 m c t) (blk3 m c t))
    (Scalar.ofBits (F := Ideal) .f32 0x00000000#32) acc h l).trans ?_
  refine congrArg (fun z => acc (ix3 (0 : Fin 1) h l) + z) ?_
  refine Finset.sum_congr rfl fun s _ => ?_
  have e5 : k0_pay5 (F := Ideal) (blk1 m c t) (ix2 s (0 : Fin 1))
      = IntOp.shrsi .vector (Cert.Syn.postPad (A1 m c) (2048 * t.val + s.val)) 8#32 :=
    (Cert.KernelIdeal.Body.pay5_apply (blk1 m c t) s).trans (congrArg (fun p => IntOp.shrsi .vector p 8#32) (Cert.KernelIdeal.Host.iblk1_apply m c t s))
  have e6 : k0_pay6 (F := Ideal) (blk1 m c t) (ix2 s (0 : Fin 1))
      = IntOp.andi (Cert.Syn.postPad (A1 m c) (2048 * t.val + s.val)) 255#32 :=
    (Cert.KernelIdeal.Body.pay6_apply (blk1 m c t) s).trans (congrArg (fun p => IntOp.andi p 255#32) (Cert.KernelIdeal.Host.iblk1_apply m c t s))
  have e4 : k0_pay4 (F := Ideal) (blk2 m c t) (ix2 s (0 : Fin 1)) = Cert.Syn.wfPad (A2 m c) (A3 m c) (2048 * t.val + s.val) :=
    (Cert.KernelIdeal.Body.pay4_apply (blk2 m c t) s).trans (Cert.KernelIdeal.Host.iblk2_apply m c t s)
  have e7 : k0_pay7 (F := Ideal) (blk0 m c t) (blk3 m c t) (ix2 s (0 : Fin 1))
      = Cert.Syn.act (A0 m c) (Cert.Syn.prePad (A1 m c) (2048 * t.val + s.val)) := by
    refine (Cert.KernelIdeal.Body.pay7_apply (blk0 m c t) (blk3 m c t) (Cert.Syn.actPad (A0 m c))
      (fun k l => Cert.KernelIdeal.Host.iblk3_apply m c t k l) s).trans ?_
    have i0 : blk0 m c t (ix3 (0 : Fin 1) s (0 : Fin 1)) = Cert.Syn.prePad (A1 m c) (2048 * t.val + s.val) :=
      Cert.KernelIdeal.Host.iblk0_apply m c t s
    rw [i0]
    exact Cert.Syn.cmp_tab_eq_act (A0 m c) _
  rw [e5, e6, e4, e7]
  rfl

/-- The same at any entry of the block. -/
theorem step_apply (c : Dev nD) (t : Fin cfg0.N) (acc : Vec Ideal S1x256x256 .f32) (i : S1x256x256.Idx) :
    step (F := Ideal) (blk0 m c t) (blk1 m c t) (blk2 m c t) (blk3 m c t) acc i = acc i + addend m c t.val i := by
  obtain ⟨z, h, l, rfl⟩ : ∃ (z : Fin 1) (h l : Fin 256), i = ix3 z h l := ⟨i 0, i 1, i 2, eq_ix3 i⟩
  obtain rfl : z = 0 := Subsingleton.elim _ _
  exact step_apply_ix m c t acc h l

/-- The block a core's first chunk leaves: the step over the zero block. -/
def resetAt (c : Dev nD) (n : ℕ) (hn : n < cfg0.N) : Vec Ideal S1x256x256 .f32 :=
  step (F := Ideal) (blk0 m c ⟨n, hn⟩) (blk1 m c ⟨n, hn⟩) (blk2 m c ⟨n, hn⟩) (blk3 m c ⟨n, hn⟩) (k0_pay2 (F := Ideal))

/-- The block a later chunk leaves over what the point before left. -/
def stepAt (c : Dev nD) (n : ℕ) (hn : n < cfg0.N) (acc : Vec Ideal S1x256x256 .f32) : Vec Ideal S1x256x256 .f32 :=
  step (F := Ideal) (blk0 m c ⟨n, hn⟩) (blk1 m c ⟨n, hn⟩) (blk2 m c ⟨n, hn⟩) (blk3 m c ⟨n, hn⟩) acc

theorem outs_reset (c : Dev nD) (n : ℕ) (hn : n < cfg0.N) (h0 : n % 4883 = 0) : outsAt0 m c n hn = resetAt m c n hn := by
  rw [outsAt0_A m c ⟨n, hn⟩ h0]
  exact out_A (F := Ideal) c (grid0.coords ⟨n, hn⟩) (ms0_0 ⟨n, hn⟩) (hs0_0 ⟨n, hn⟩) (ms0_1 ⟨n, hn⟩) (hs0_1 ⟨n, hn⟩)
    (ms0_2 ⟨n, hn⟩) (hs0_2 ⟨n, hn⟩) (ms0_3 ⟨n, hn⟩) (hs0_3 ⟨n, hn⟩) (ms0_4 ⟨n, hn⟩) (hs0_4 ⟨n, hn⟩)
    ((hcond0_0 ⟨n, hn⟩).mpr h0) (iblk m c 0 ⟨n, hn⟩) (iblk m c 1 ⟨n, hn⟩) (iblk m c 2 ⟨n, hn⟩) (iblk m c 3 ⟨n, hn⟩)

theorem outs_step (c : Dev nD) (n : ℕ) (hn : n + 1 < cfg0.N) (h0 : ¬(n + 1) % 4883 = 0) :
    outsAt0 m c (n + 1) hn = stepAt m c (n + 1) hn (outsAt0 m c n (Nat.lt_of_succ_lt hn)) := by
  rw [outsAt0_B m c ⟨n + 1, hn⟩ h0]
  exact out_B (F := Ideal) c (grid0.coords ⟨n + 1, hn⟩) (ms0_0 ⟨n + 1, hn⟩) (hs0_0 ⟨n + 1, hn⟩) (ms0_1 ⟨n + 1, hn⟩) (hs0_1 ⟨n + 1, hn⟩)
    (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
    (fun h => h0 ((hcond0_0 ⟨n + 1, hn⟩).mp h)) (iblk m c 0 ⟨n + 1, hn⟩) (iblk m c 1 ⟨n + 1, hn⟩) (iblk m c 2 ⟨n + 1, hn⟩)
    (iblk m c 3 ⟨n + 1, hn⟩) (outsAt0 m c n (Nat.lt_of_succ_lt hn))

/-- After the last chunk of core q the block holds zero plus the core's 4883 chunks' addends. -/
theorem outs_last (c : Dev nD) (q : ℕ) (hq : 4883 * q + 4882 < cfg0.N) (i : S1x256x256.Idx) :
    outsAt0 m c (4883 * q + 4882) hq i
      = k0_pay2 (F := Ideal) i + ∑ s ∈ Finset.range 4883, addend m c (4883 * q + s) i := by
  have hfold := Pipeline.eq_accAt (outsAt0 m c) 4883 (resetAt m c) (stepAt m c) (outs_reset m c)
    (fun n h hn => outs_step m c n h hn) q 4882 (by decide) hq
  rw [hfold]
  exact Pipeline.accAt_add_apply (resetAt m c) (stepAt m c) (k0_pay2 (F := Ideal)) (addend m c) (4883 * q) 4882
    (fun h i => step_apply m c ⟨4883 * q, h⟩ _ i)
    (fun n h acc i _ _ => step_apply m c ⟨n, h⟩ acc i) 4882 le_rfl hq i

end Cert.KernelIdeal.Acc

end
-- ==== Proof.KerTail.lean ====
/-
  The host lines after the region, read at an entry: the two cores' [256, 256] slabs are added (from the zero word),
  the sum is viewed as one row of 65536 and its first 51978 entries are kept, so entry j of the result is the zero
  word plus the two slabs' entries at row j / 256, column j % 256.
-/
import proofs.«430677_j34170759807367_3_alg».proof.KernelIdeal
import proofs.«430677_j34170759807367_3_alg».proof.Proof.Gen.KernelIdeal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Tail

open Idealize.ShloMosaic Idealize.ShloMosaic.ValueIdx Cert.KernelIdeal

/-- The three host operations after the region, as one function of the region's result array. -/
def tail (X : FVec Ideal S2x256x256 .f32) : FVec Ideal S1x51978 .f32 :=
  extractStridedSlice S1x51978 ![0, 0]
    (shapeCast S1x65536
      (Host.reduceAdd (F := Ideal) X (constant (F := Ideal) S_ .f32 0x00000000#32)
        Cert.KernelIdeal.Facts₀.reducesTo_S2x256x256_S256x256_d0 Cert.KernelIdeal.Facts₀.h_S_)
      Cert.KernelIdeal.Facts₀.shapeCasts_S256x256_S1x65536)
    Cert.KernelIdeal.Facts₀.slices_S1x65536_S1x51978_0_0

theorem tail_apply (X : FVec Ideal S2x256x256 .f32) (j : Fin 51978) :
    tail X (ix2 (0 : Fin 1) j)
      = Ideal.ofBits .f32 0x00000000#32
        + ∑ q : Fin 2, X (ix3 q (⟨j.val / 256, by have := j.isLt; omega⟩ : Fin 256) (⟨j.val % 256, Nat.mod_lt _ (by decide)⟩ : Fin 256)) := by
  have hj : j.val < 65536 := by have := j.isLt; omega
  have ha : j.val / 256 < 256 := by omega
  have hb : j.val % 256 < 256 := Nat.mod_lt _ (by decide)
  unfold tail
  generalize hR : Host.reduceAdd (F := Ideal) X (constant (F := Ideal) S_ .f32 0x00000000#32)
    Cert.KernelIdeal.Facts₀.reducesTo_S2x256x256_S256x256_d0 Cert.KernelIdeal.Facts₀.h_S_ = R
  rw [slice2_axis1_apply 0 (shapeCast S1x65536 R Cert.KernelIdeal.Facts₀.shapeCasts_S256x256_S1x65536)
      Cert.KernelIdeal.Facts₀.slices_S1x65536_S1x51978_0_0 (0 : Fin 1) j (⟨j.val, hj⟩ : Fin 65536) (Nat.zero_add _).symm,
    shapeCast_apply R Cert.KernelIdeal.Facts₀.shapeCasts_S256x256_S1x65536 (ix2 (0 : Fin 1) (⟨j.val, hj⟩ : Fin 65536))
      (ix2 (⟨j.val / 256, ha⟩ : Fin 256) (⟨j.val % 256, hb⟩ : Fin 256))
      (by rw [Shape.rowMajor_val_two, Shape.rowMajor_val_two]
          show j.val / 256 * 256 + j.val % 256 = 0 * 65536 + j.val
          omega)]
  subst hR
  have hred : S2x256x256.Reduces [0] S256x256 := by decide
  show Ideal.hostReduceAdd Cert.KernelIdeal.Facts₀.reducesTo_S2x256x256_S256x256_d0 X (Ideal.ofBits .f32 0x00000000#32)
      (ix2 (⟨j.val / 256, ha⟩ : Fin 256) (⟨j.val % 256, hb⟩ : Fin 256)) = _
  rw [Ideal.hostReduceAdd_single Cert.KernelIdeal.Facts₀.reducesTo_S2x256x256_S256x256_d0 hred X]
  show _ + ∑ q : Fin 2, X (hred.lift (ix2 (⟨j.val / 256, ha⟩ : Fin 256) (⟨j.val % 256, hb⟩ : Fin 256)) q) = _
  congr 1
  refine Finset.sum_congr rfl fun q _ => congrArg X ?_
  funext c
  match c with
  | ⟨0, _⟩ => exact Fin.ext rfl
  | ⟨1, _⟩ => exact Fin.ext rfl
  | ⟨2, _⟩ => exact Fin.ext rfl

end Cert.KernelIdeal.Tail

end
-- ==== Proof.KerIdx.lean ====
/-
  The output window's block index over the grid: point t writes slab t / 4883 of the [2, 256, 256] result, at row and
  column offset zero.
-/
import proofs.«430677_j34170759807367_3_alg».proof.Proof.Gen.KernelIdeal.Points

noncomputable section

namespace Cert.KernelIdeal.Final

open Idealize.ShloMosaic Cert.KernelIdeal Cert.KernelIdeal.Gen

theorem idx_facts4 : ∀ t : Fin cfg0.N, win0_4.index t (0 : Fin 3) = t.val / 4883 ∧ win0_4.index t (1 : Fin 3) = 0
    ∧ win0_4.index t (2 : Fin 3) = 0 :=
  (by decide +kernel : ∀ t : Fin grid0.N, win0_4.index t (0 : Fin 3) = t.val / 4883 ∧ win0_4.index t (1 : Fin 3) = 0
    ∧ win0_4.index t (2 : Fin 3) = 0)

end Cert.KernelIdeal.Final

end
-- ==== Proof.KerFinal.lean ====
/-
  The kernel's result.

  The region's result array [2, 256, 256] is written back twice, after the last chunk of each core, and those two
  slabs tile it: slab q ends holding what the output block held after point 4883·q + 4882 (final17: the blocks are
  the restrictions of one function, and every entry lies in one of the two). The host lines after the region add the
  two slabs, view the sum as one row and keep its first 51978 entries (tail20). Entry j of that row, with h = j / 256
  and l = j % 256, is therefore zero plus, over both cores, zero plus the sum over the core's 4883 chunks of the
  chunk's 2048 terms for the byte pair (h, l): the sum over all 20 000 768 padded synapses, which is the current into
  neuron 256·h + l = j (value_apply).
-/
import proofs.«430677_j34170759807367_3_alg».proof.Proof.KerAcc
import proofs.«430677_j34170759807367_3_alg».proof.Proof.KerTail
import proofs.«430677_j34170759807367_3_alg».proof.Proof.KerIdx
import Idealize.ShloMosaic.Lib.Pipeline.Value
import Idealize.ShloMosaic.Lib.StableHlo.Run
import Idealize.ShloMosaic.Lib.Tactic

noncomputable section

open scoped BigOperators

namespace Cert.KernelIdeal.Final

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Acc

variable (m : (ℓ : Loc nD τ sig) → Buf (Elt Ideal) ℓ) (ρ : Dev nD → PrngReg)

theorem N9766 : cfg0.N = 9766 := N_0

/-- The contents of the output block after a point do not depend on how the point and the entry are written. -/
theorem outs_congr (c : Dev nD) (n n' : ℕ) (h : n < cfg0.N) (h' : n' < cfg0.N) (i i' : S1x256x256.Idx) (e : n = n')
    (ei : ∀ a, (i a).val = (i' a).val) : outsAt0 m c n h i = outsAt0 m c n' h' i' := by
  subst e
  obtain rfl : i = i' := funext fun a => Fin.ext (ei a)
  rfl

/-- What the region's result array ends holding: slab q is the output block after the last chunk of core q. -/
def Gfin (c : Dev nD) : FVec Ideal S2x256x256 .f32 := fun k =>
  outsAt0 m c (4883 * (k 0).val + 4882)
    (by have h2 : (k 0).val < 2 := (k 0).isLt
        rw [N9766]; omega)
    (ix3 (0 : Fin 1) (⟨(k 1).val, (k 1).isLt⟩ : Fin 256) (⟨(k 2).val, (k 2).isLt⟩ : Fin 256))

/-- What a point writes back of a block X is the block's part of any array that agrees with X through the block's
    embedding into the array. -/
theorem cut_eq_read (t : Fin cfg0.N) (X : Vec Ideal S1x256x256 .f32) (G : FVec Ideal S2x256x256 .f32)
    (h : ∀ y : S1x256x256.Idx, X y = G (((cfg0.win 4).blk t).view.emb y)) :
    (cfg0.win 4).cut (grid0.coords t) X = ((cfg0.win 4).blk t).view.read (Elt Ideal) G := by
  funext y
  exact h y

theorem Gfin_def (c : Dev nD) (k : S2x256x256.Idx) (hk : 4883 * (k 0).val + 4882 < cfg0.N) :
    Gfin m c k = outsAt0 m c (4883 * (k 0).val + 4882) hk
      (ix3 (0 : Fin 1) (⟨(k 1).val, (k 1).isLt⟩ : Fin 256) (⟨(k 2).val, (k 2).isLt⟩ : Fin 256)) := rfl

/-- A point that writes the block back writes the block's part of Gfin. -/
theorem flushed_eq (c : Dev nD) (t : Fin cfg0.N) (hf : (cfg0.win 4).flush t = true) :
    (dats m 0 c).flushed 4 t = ((cfg0.win 4).blk t).view.read (Elt Ideal) (Gfin m c) := by
  have h1 : t.val % 4883 = 4882 := (flush0_4 t).mp hf
  have hN : t.val < 9766 := lt_of_lt_of_eq t.isLt N9766
  obtain ⟨e0, e1, e2⟩ := idx_facts4 t
  show (cfg0.win 4).cut (grid0.coords t) ((dats m 0 c).after 4 t) = _
  rw [after0_4]
  refine cut_eq_read t _ _ (fun y => ?_)
  have hy0 : (y 0).val < 1 := (y 0).isLt
  have k0 : ((((cfg0.win 4).blk t).view.emb y) 0).val = t.val / 4883 := by
    show win0_4.index t (0 : Fin 3) * 1 + 1 * (y 0).val = _
    omega
  have k1 : ((((cfg0.win 4).blk t).view.emb y) 1).val = (y 1).val := by
    show win0_4.index t (1 : Fin 3) * 256 + 1 * (y 1).val = _
    omega
  have k2 : ((((cfg0.win 4).blk t).view.emb y) 2).val = (y 2).val := by
    show win0_4.index t (2 : Fin 3) * 256 + 1 * (y 2).val = _
    omega
  rw [Gfin_def m c _ (by rw [k0]; exact lt_of_lt_of_eq (by omega : 4883 * (t.val / 4883) + 4882 < 9766) N9766.symm)]
  refine outs_congr m c _ _ _ _ _ _ (by rw [k0]; omega) (fun a => ?_)
  match a with
  | ⟨0, _⟩ => show (y 0).val = 0; omega
  | ⟨1, _⟩ => exact k1.symm
  | ⟨2, _⟩ => exact k2.symm

/-- An entry of the result array is in point t's block iff each coordinate is in the block's range. -/
theorem mem_blk4 (t : Fin cfg0.N) (i : S2x256x256.Idx) :
    i ∈ ((cfg0.win 4).blk t).view.set ↔ ∀ a : Fin 3, win0_4.index t a * S1x256x256.size a ≤ (i a).val
      ∧ (i a).val < win0_4.index t a * S1x256x256.size a + S1x256x256.size a := by
  show i ∈ ((View.whole main_v17).slice (win0_4.rect t)).set ↔ _
  rw [View.set_slice_whole, Rect.mem_set_unit]
  exact Iff.rfl

/-- Every entry of the result array is in the block some point writes back: slab q at point 4883·q + 4882. -/
theorem cover4 (i : S2x256x256.Idx) : ∃ t : Fin cfg0.N, (cfg0.win 4).flush t = true ∧ i ∈ ((cfg0.win 4).blk t).view.set := by
  have h0 : (i 0).val < 2 := (i 0).isLt
  have h1 : (i 1).val < 256 := (i 1).isLt
  have h2 : (i 2).val < 256 := (i 2).isLt
  have hlt : 4883 * (i 0).val + 4882 < cfg0.N := by rw [N9766]; omega
  obtain ⟨e0, e1, e2⟩ := idx_facts4 ⟨4883 * (i 0).val + 4882, hlt⟩
  have e0' : win0_4.index ⟨4883 * (i 0).val + 4882, hlt⟩ (0 : Fin 3) = (i 0).val := by
    rw [e0]; show (4883 * (i 0).val + 4882) / 4883 = (i 0).val; omega
  refine ⟨⟨4883 * (i 0).val + 4882, hlt⟩, (flush0_4 _).mpr (by show (4883 * (i 0).val + 4882) % 4883 = 4882; omega), ?_⟩
  rw [mem_blk4]
  intro a
  match a with
  | ⟨0, _⟩ =>
    show win0_4.index ⟨4883 * (i 0).val + 4882, hlt⟩ (0 : Fin 3) * 1 ≤ (i 0).val
      ∧ (i 0).val < win0_4.index ⟨4883 * (i 0).val + 4882, hlt⟩ (0 : Fin 3) * 1 + 1
    rw [e0']; omega
  | ⟨1, _⟩ =>
    show win0_4.index ⟨4883 * (i 0).val + 4882, hlt⟩ (1 : Fin 3) * 256 ≤ (i 1).val
      ∧ (i 1).val < win0_4.index ⟨4883 * (i 0).val + 4882, hlt⟩ (1 : Fin 3) * 256 + 256
    rw [e1]; omega
  | ⟨2, _⟩ =>
    show win0_4.index ⟨4883 * (i 0).val + 4882, hlt⟩ (2 : Fin 3) * 256 ≤ (i 2).val
      ∧ (i 2).val < win0_4.index ⟨4883 * (i 0).val + 4882, hlt⟩ (2 : Fin 3) * 256 + 256
    rw [e2]; omega

/-- The region's result array after the run. -/
theorem final17 (c : Dev nD) : (dats m 0 c).arrAt 4 cfg0.N = Gfin m c :=
  (dats m 0 c).arrAt_eq_of_cover 4 (Gfin m c) (flushed_eq m c) (cover4)

/-- The program's result buffer after the host lines that follow the region. -/
theorem tail20 (c : Dev nD) :
    Pipeline.afterTail₀ cfgs (dats m) 0 (V0 m) [hostOps1] c main_v20 = Cert.KernelIdeal.Tail.tail (Gfin m c) := by
  unfold Pipeline.afterTail₀
  show StableHlo.after hostOps1 _ (Proc.devRef .tc main_v20) = _
  after_results
  rw [show Pipeline.withArrays (cfgs 0).spec c (V0 m c) (fun w => (dats m 0 c).arrAt w (cfgs 0).N) (Proc.tc.devRef main_v17)
      = Gfin m c from
    (Pipeline.withArrays_arr spec0 launch0.win.arr_inj c (V0 m c) (fun w => (dats m 0 c).arrAt w cfg0.N) 4).trans (final17 m c)]
  rfl

/-- Slab q of the result array at (h, l): zero plus the terms of core q's 4883 chunks for the byte pair (h, l). -/
theorem Gfin_apply (c : Dev nD) (q : Fin 2) (h l : Fin 256) :
    Gfin m c (ix3 q h l)
      = Ideal.ofBits .f32 0x00000000#32
        + ∑ s ∈ Finset.range 4883, ∑ s' : Fin 2048,
            Cert.Syn.term (A0 m c) (A1 m c) (A2 m c) (A3 m c) h.val l.val (2048 * (4883 * q.val + s) + s'.val) := by
  have hq : 4883 * q.val + 4882 < cfg0.N := by have := q.isLt; rw [N9766]; omega
  have key := outs_last m c q.val hq (ix3 (0 : Fin 1) h l)
  rw [Cert.KernelIdeal.Body.pay2_apply] at key
  refine (outs_congr m c _ _ _ hq _ (ix3 (0 : Fin 1) h l) rfl (fun a => ?_)).trans key
  match a with
  | ⟨0, _⟩ => rfl
  | ⟨1, _⟩ => rfl
  | ⟨2, _⟩ => rfl

/-- Entry j of the program's result: the current into neuron j. -/
theorem value_apply (c : Dev nD) (j : Fin 51978) :
    Cert.KernelIdeal.Tail.tail (Gfin m c) (ix2 (0 : Fin 1) j) = Cert.Syn.G (A0 m c) (A1 m c) (A2 m c) (A3 m c) j.val := by
  have hj := j.isLt
  have hh : j.val / 256 < 256 := by omega
  have hl : j.val % 256 < 256 := Nat.mod_lt _ (by decide)
  rw [Cert.KernelIdeal.Tail.tail_apply (Gfin m c) j]
  rw [Finset.sum_congr rfl (fun q _ => Gfin_apply m c q ⟨j.val / 256, hh⟩ ⟨j.val % 256, hl⟩)]
  simp only [Ideal.ofBits_zero_f32, zero_add]
  refine (Cert.Syn.sum_chunks (fun n => Cert.Syn.term (A0 m c) (A1 m c) (A2 m c) (A3 m c) (j.val / 256) (j.val % 256) n)).trans ?_
  rw [Cert.Syn.sum_term_eq_G (A0 m c) (A1 m c) (A2 m c) (A3 m c) (j.val / 256) (j.val % 256) hh hl]
  congr 1
  omega

/-- The program's result is the specification's. -/
theorem value_eq (c : Dev nD) :
    Cert.KernelIdeal.Tail.tail (Gfin m c) = Cert.Syn.result (A0 m c) (A1 m c) (A2 m c) (A3 m c) := by
  funext i
  obtain ⟨z, j, rfl⟩ : ∃ (z : Fin 1) (j : Fin 51978), i = ix2 z j := ⟨i 0, i 1, eq_ix2 i⟩
  obtain rfl : z = 0 := Subsingleton.elim _ _
  exact value_apply m c j

/-- The kernel's run, read: every weakly fair execution ends with the result buffer at the specification's function
    of the argument arrays, and the arguments unchanged. -/
theorem run : θ_run defs (onTc (τ := τ) (main (F := Ideal))) ⟨m, fun _ => 0, ρ⟩ fun r => ∀ c : Dev nD,
      r.2.mem ((c.tc : Thread nD τ).loc main_v20) = Cert.Syn.result (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans ((tail20 m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  The kernel computes the synaptic input current with one-hot matrix products, the reference with a gather and a
  segment sum; both are the same sum.

  Statement. Synapse n joins presynaptic unit pre(n) = indices[n, 1] to neuron post(n) = indices[n, 0] with weight
  w(n)·f(n). Under the precondition (every float input finite, and every presynaptic index in the range [0, 17400)
  of the input row it indexes) both programs end with entry j of their result at

      G j = ∑ n, [post(n) = j] · (if inputs[0, pre(n)] > 0 then w(n)·f(n) else 0)          (Proof/Spec.lean).

  The reference (Proof/RefValue.lean): with pre(n) in range the wrap of negative indices is the identity and the
  gather reads unit pre(n) unclamped; the accumulating scatter into zeros at j sums the updates whose index is j, an
  index outside [0, 51978) landing nowhere.
  The kernel (Proof/KerGather.lean, KerScatter.lean, KerHost.lean, KerPieces.lean, KerAcc.lean, KerTail.lean,
  KerFinal.lean): it pads the synapse list with 768 zero-weight synapses, splits it over 2 cores × 4883 chunks of
  2048, and names a neuron by its two bytes j = 256·h + l. Per chunk, the product of the one-hot of pre's high part
  with the 128 × 256 spike table, masked by the one-hot of pre's low byte and summed over lanes, is the spike of unit
  pre(n) (0 for a word naming no unit); the contraction over the chunk of (selected weight × one-hot of post's high
  part) against the one-hot of post's low byte adds to entry (h, l) the weights of the chunk's spiking synapses that
  end at 256·h + l. A product with a 0/1 indicator is the factor or zero for every extended real, so no finiteness
  is used. The block is zeroed at a core's first chunk and accumulated over its 4883 chunks; the two cores' slabs are
  added, viewed as one row and cut to 51978 entries. Summing over cores, chunks and lanes is summing over the padded
  list (Proof/Arith.lean), whose padding contributes zero. A postsynaptic index outside the result is dropped by both
  programs, so no range is asked of it.
  The frames are the generated ones; the ideal pass rewrote nothing, so the kernel's idealization is its own text.
-/
import proofs.«430677_j34170759807367_3_alg».proof.Defs
import proofs.«430677_j34170759807367_3_alg».proof.Proof.Gen.Kernel
import proofs.«430677_j34170759807367_3_alg».proof.Proof.Gen.Kernel.Frame
import proofs.«430677_j34170759807367_3_alg».proof.Proof.Gen.KernelIdeal
import proofs.«430677_j34170759807367_3_alg».proof.Proof.Gen.KernelIdeal.Frame
import proofs.«430677_j34170759807367_3_alg».proof.Proof.Gen.ReferenceIdeal
import proofs.«430677_j34170759807367_3_alg».proof.Proof.Gen.ReferenceIdeal.Run
import proofs.«430677_j34170759807367_3_alg».proof.Proof.Gen.ReferenceIdeal.Read
import proofs.«430677_j34170759807367_3_alg».proof.Proof.Gen.Pre_finite_inputs
import proofs.«430677_j34170759807367_3_alg».proof.Proof.Spec
import proofs.«430677_j34170759807367_3_alg».proof.Proof.PreDecode
import proofs.«430677_j34170759807367_3_alg».proof.Proof.RefValue
import proofs.«430677_j34170759807367_3_alg».proof.Proof.KerFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's function of arguments that agree. -/
theorem algebraic : Cert.algebraic_KernelIdeal_ReferenceIdeal := by
  intro m ρ m' ρ' hpre hagree
  refine ⟨fun c => Cert.Syn.result (Cert.KernelIdeal.Acc.A0 m c) (Cert.KernelIdeal.Acc.A1 m c) (Cert.KernelIdeal.Acc.A2 m c)
    (Cert.KernelIdeal.Acc.A3 m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2]
  exact Cert.ReferenceIdeal.RefValue.val_eq_result _ _ _ _ (fun n => Cert.Syn.pre_in_range _ _ _ _ (hpre c) n)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
